-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x512 : Shape := ⟨3, ![8, 1024, 512]⟩
abbrev S512x512 : Shape := ⟨2, ![512, 512]⟩
abbrev S512 : Shape := ⟨1, ![512]⟩
abbrev S_ : Shape := ⟨0, ![]⟩

class Facts : Prop where
  bcast_S_S8x1024x512 : S_.BroadcastsInDim S8x1024x512 (![] : Fin 0 → Fin S8x1024x512.rank)
  reducesTo_S8x1024x512_S_d0_1_2 : S8x1024x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part8 {F : FTy → Type} [FloatOps F] (main_arg24 : FVec F S512 .f32) (main_v135 : IVec S_ 1) : IVec S_ 1 :=
  let main_cst_54 : FVec F S_ .f32 := constant S_ .f32 0x00000000#32
  let main_v136 : FVec F S512 .f32 := broadcastInDim S512 ![] bcast_S_S512 main_cst_54
  let main_v137 : IVec S512 1 := cmpf .oge main_arg24 main_v136
  let main_c_55 : IVec S_ 1 := constantI S_ 1 1#1
  let main_v138 : IVec S_ 1 := (fun x v => Host.reduce IntOp.andi x v reducesTo_S512_S_d0 h_S_) main_v137 main_c_55
  let main_v139 : IVec S_ 1 := andi main_v135 main_v138
  main_v139

def fn_part7 {F : FTy → Type} [FloatOps F] (main_arg6 : FVec F S512 .f32) (main_arg12 : FVec F S512 .f32) (main_arg18 : FVec F S512 .f32) (main_arg24 : FVec F S512 .f32) (main_v118 : IVec S_ 1) (main_v119 : FVec F S512 .f32) : IVec S_ 1 :=
  let main_cst_46 : FVec F S_ .f32 := constant S_ .f32 0x7F800000#32
  let main_v120 : FVec F S512 .f32 := broadcastInDim S512 ![] bcast_S_S512 main_cst_46
  let main_v121 : IVec S512 1 := cmpf .olt main_v119 main_v120
  let main_c_47 : IVec S_ 1 := constantI S_ 1 1#1
  let main_v122 : IVec S_ 1 := (fun x v => Host.reduce IntOp.andi x v reducesTo_S512_S_d0 h_S_) main_v121 main_c_47
  let main_v123 : IVec S_ 1 := andi main_v118 main_v122
  let main_cst_48 : FVec F S_ .f32 := constant S_ .f32 0x00000000#32
  let main_v124 : FVec F S512 .f32 := broadcastInDim S512 ![] bcast_S_S512 main_cst_48
  let main_v125 : IVec S512 1 := cmpf .oge main_arg6 main_v124
  let main_c_49 : IVec S_ 1 := constantI S_ 1 1#1
  let main_v126 : IVec S_ 1 := (fun x v => Host.reduce IntOp.andi x v reducesTo_S512_S_d0 h_S_) main_v125 main_c_49
  let main_v127 : IVec S_ 1 := andi main_v123 main_v126
  let main_cst_50 : FVec F S_ .f32 := constant S_ .f32 0x00000000#32
  let main_v128 : FVec F S512 .f32 := broadcastInDim S512 ![] bcast_S_S512 main_cst_50
  let main_v129 : IVec S512 1 := cmpf .oge main_arg12 main_v128
  let main_c_51 : IVec S_ 1 := constantI S_ 1 1#1
  let main_v130 : IVec S_ 1 := (fun x v => Host.reduce IntOp.andi x v reducesTo_S512_S_d0 h_S_) main_v129 main_c_51
  let main_v131 : IVec S_ 1 := andi main_v127 main_v130
  let main_cst_52 : FVec F S_ .f32 := constant S_ .f32 0x00000000#32
  let main_v132 : FVec F S512 .f32 := broadcastInDim S512 ![] bcast_S_S512 main_cst_52
  let main_v133 : IVec S512 1 := cmpf .oge main_arg18 main_v132
  let main_c_53 : IVec S_ 1 := constantI S_ 1 1#1
  let main_v134 : IVec S_ 1 := (fun x v => Host.reduce IntOp.andi x v reducesTo_S512_S_d0 h_S_) main_v133 main_c_53
  let main_v135 : IVec S_ 1 := andi main_v131 main_v134
  fn_part8 (F := F) main_arg24 main_v135

def fn_part6 {F : FTy → Type} [FloatOps F] (main_arg6 : FVec F S512 .f32) (main_arg12 : FVec F S512 .f32) (main_arg18 : FVec F S512 .f32) (main_arg21 : FVec F S512 .f32) (main_arg22 : FVec F S512 .f32) (main_arg23 : FVec F S512 .f32) (main_arg24 : FVec F S512 .f32) (main_v98 : IVec S_ 1) (main_v101 : IVec S512 1) (main_c_39 : IVec S_ 1) : IVec S_ 1 :=
  let main_v102 : IVec S_ 1 := (fun x v => Host.reduce IntOp.andi x v reducesTo_S512_S_d0 h_S_) main_v101 main_c_39
  let main_v103 : IVec S_ 1 := andi main_v98 main_v102
  let main_v104 : FVec F S512 .f32 := Host.absf main_arg21
  let main_cst_40 : FVec F S_ .f32 := constant S_ .f32 0x7F800000#32
  let main_v105 : FVec F S512 .f32 := broadcastInDim S512 ![] bcast_S_S512 main_cst_40
  let main_v106 : IVec S512 1 := cmpf .olt main_v104 main_v105
  let main_c_41 : IVec S_ 1 := constantI S_ 1 1#1
  let main_v107 : IVec S_ 1 := (fun x v => Host.reduce IntOp.andi x v reducesTo_S512_S_d0 h_S_) main_v106 main_c_41
  let main_v108 : IVec S_ 1 := andi main_v103 main_v107
  let main_v109 : FVec F S512 .f32 := Host.absf main_arg22
  let main_cst_42 : FVec F S_ .f32 := constant S_ .f32 0x7F800000#32
  let main_v110 : FVec F S512 .f32 := broadcastInDim S512 ![] bcast_S_S512 main_cst_42
  let main_v111 : IVec S512 1 := cmpf .olt main_v109 main_v110
  let main_c_43 : IVec S_ 1 := constantI S_ 1 1#1
  let main_v112 : IVec S_ 1 := (fun x v => Host.reduce IntOp.andi x v reducesTo_S512_S_d0 h_S_) main_v111 main_c_43
  let main_v113 : IVec S_ 1 := andi main_v108 main_v112
  let main_v114 : FVec F S512 .f32 := Host.absf main_arg23
  let main_cst_44 : FVec F S_ .f32 := constant S_ .f32 0x7F800000#32
  let main_v115 : FVec F S512 .f32 := broadcastInDim S512 ![] bcast_S_S512 main_cst_44
  let main_v116 : IVec S512 1 := cmpf .olt main_v114 main_v115
  let main_c_45 : IVec S_ 1 := constantI S_ 1 1#1
  let main_v117 : IVec S_ 1 := (fun x v => Host.reduce IntOp.andi x v reducesTo_S512_S_d0 h_S_) main_v116 main_c_45
  let main_v118 : IVec S_ 1 := andi main_v113 main_v117
  let main_v119 : FVec F S512 .f32 := Host.absf main_arg24
  fn_part7 (F := F) main_arg6 main_arg12 main_arg18 main_arg24 main_v118 main_v119

def fn_part5 {F : FTy → Type} [FloatOps F] (main_arg6 : FVec F S512 .f32) (main_arg12 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v83 : IVec S_ 1) (main_v84 : FVec F S512 .f32) (main_cst_32 : FVec F S_ .f32) : IVec S_ 1 :=
  let main_v85 : FVec F S512 .f32 := broadcastInDim S512 ![] bcast_S_S512 main_cst_32
  let main_v86 : IVec S512 1 := cmpf .olt main_v84 main_v85
  let main_c_33 : IVec S_ 1 := constantI S_ 1 1#1
  let main_v87 : IVec S_ 1 := (fun x v => Host.reduce IntOp.andi x v reducesTo_S512_S_d0 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  let main_v94 : FVec F S512x512 .f32 := Host.absf main_arg19
  let main_cst_36 : FVec F S_ .f32 := constant S_ .f32 0x7F800000#32
  let main_v95 : FVec F S512x512 .f32 := broadcastInDim S512x512 ![] bcast_S_S512x512 main_cst_36
  let main_v96 : IVec S512x512 1 := cmpf .olt main_v94 main_v95
  let main_c_37 : IVec S_ 1 := constantI S_ 1 1#1
  let main_v97 : IVec S_ 1 := (fun x v => Host.reduce IntOp.andi x v reducesTo_S512x512_S_d0_1 h_S_) main_v96 main_c_37
  let main_v98 : IVec S_ 1 := andi main_v93 main_v97
  let main_v99 : FVec F S512 .f32 := Host.absf main_arg20
  let main_cst_38 : FVec F S_ .f32 := constant S_ .f32 0x7F800000#32
  let main_v100 : FVec F S512 .f32 := broadcastInDim S512 ![] bcast_S_S512 main_cst_38
  let main_v101 : IVec S512 1 := cmpf .olt main_v99 main_v100
  let main_c_39 : IVec S_ 1 := constantI S_ 1 1#1
  fn_part6 (F := F) main_arg6 main_arg12 main_arg18 main_arg21 main_arg22 main_arg23 main_arg24 main_v98 main_v101 main_c_39

def fn_part4 {F : FTy → Type} [FloatOps F] (main_arg6 : FVec F S512 .f32) (main_arg12 : FVec F S512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512 .f32 := Host.absf main_arg15
  let main_cst_28 : FVec F S_ .f32 := constant S_ .f32 0x7F800000#32
  let main_v75 : FVec F S512 .f32 := broadcastInDim S512 ![] bcast_S_S512 main_cst_28
  let main_v76 : IVec S512 1 := cmpf .olt main_v74 main_v75
  let main_c_29 : IVec S_ 1 := constantI S_ 1 1#1
  let main_v77 : IVec S_ 1 := (fun x v => Host.reduce IntOp.andi x v reducesTo_S512_S_d0 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512 .f32 := Host.absf main_arg17
  let main_cst_32 : FVec F S_ .f32 := constant S_ .f32 0x7F800000#32
  fn_part5 (F := F) main_arg6 main_arg12 main_arg18 main_arg19 main_arg20 main_arg21 main_arg22 main_arg23 main_arg24 main_v83 main_v84 main_cst_32

def fn_part3 {F : FTy → Type} [FloatOps F] (main_arg6 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg6 main_arg12 main_arg14 main_arg15 main_arg16 main_arg17 main_arg18 main_arg19 main_arg20 main_arg21 main_arg22 main_arg23 main_arg24 main_v63 main_v67

def fn_part2 {F : FTy → Type} [FloatOps F] (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg6 main_arg11 main_arg12 main_arg13 main_arg14 main_arg15 main_arg16 main_arg17 main_arg18 main_arg19 main_arg20 main_arg21 main_arg22 main_arg23 main_arg24 main_v48 main_v49 main_v50

def fn_part1 {F : FTy → Type} [FloatOps F] (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg6 main_arg7 main_arg8 main_arg9 main_arg10 main_arg11 main_arg12 main_arg13 main_arg14 main_arg15 main_arg16 main_arg17 main_arg18 main_arg19 main_arg20 main_arg21 main_arg22 main_arg23 main_arg24 main_v33

def fn {F : FTy → Type} [FloatOps F] (main_arg0 : FVec F S8x1024x512 .f32) (main_arg1 : FVec F S512x512 .f32) (main_arg2 : FVec F S512 .f32) (main_arg3 : FVec F S512 .f32) (main_arg4 : FVec F S512 .f32) (main_arg5 : FVec F S512 .f32) (main_arg6 : FVec F S512 .f32) (main_arg7 : FVec F S512x512 .f32) (main_arg8 : FVec F S512 .f32) (main_arg9 : FVec F S512 .f32) (main_arg10 : FVec F S512 .f32) (main_arg11 : FVec F S512 .f32) (main_arg12 : FVec F S512 .f32) (main_arg13 : FVec F S512x512 .f32) (main_arg14 : FVec F S512 .f32) (main_arg15 : FVec F S512 .f32) (main_arg16 : FVec F S512 .f32) (main_arg17 : FVec F S512 .f32) (main_arg18 : FVec F S512 .f32) (main_arg19 : FVec F S512x512 .f32) (main_arg20 : FVec F S512 .f32) (main_arg21 : FVec F S512 .f32) (main_arg22 : FVec F S512 .f32) (main_arg23 : FVec F S512 .f32) (main_arg24 : FVec F S512 .f32) : IVec S_ 1 :=
  let main_v0 : FVec F S8x1024x512 .f32 := Host.absf main_arg0
  let main_cst : FVec F S_ .f32 := constant S_ .f32 0x7F800000#32
  let main_v1 : FVec F S8x1024x512 .f32 := broadcastInDim S8x1024x512 ![] bcast_S_S8x1024x512 main_cst
  let main_v2 : IVec S8x1024x512 1 := cmpf .olt main_v0 main_v1
  let main_c : IVec S_ 1 := constantI S_ 1 1#1
  let main_v3 : IVec S_ 1 := (fun x v => Host.reduce IntOp.andi x v reducesTo_S8x1024x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_v13 main_v16
-- ==== Kernel.lean ====
abbrev S8x1024x512 : Shape := ⟨3, ![8, 1024, 512]⟩
abbrev S512x512 : Shape := ⟨2, ![512, 512]⟩
abbrev S512 : Shape := ⟨1, ![512]⟩
abbrev S1x1024x512 : Shape := ⟨3, ![1, 1024, 512]⟩
abbrev S1024x512 : Shape := ⟨2, ![1024, 512]⟩
abbrev S1x512 : Shape := ⟨2, ![1, 512]⟩
abbrev S1024x64 : Shape := ⟨2, ![1024, 64]⟩
abbrev S64x1024 : Shape := ⟨2, ![64, 1024]⟩
abbrev S1024x1024 : Shape := ⟨2, ![1024, 1024]⟩

abbrev nBuf : Space → Nat
  | .hbm => 26
  | .vmem => 28
  | .smem => 0
  | _ => 0

abbrev bufTy : (tb : Table) → Fin (tcTables nBuf tb) → BufTy
  | .hbm, ⟨0, _⟩ => ⟨S8x1024x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S8x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S512x512, .f32⟩
  | .local _ .vmem, ⟨3, _⟩ => ⟨S512, .f32⟩
  | .local _ .vmem, ⟨4, _⟩ => ⟨S512, .f32⟩
  | .local _ .vmem, ⟨5, _⟩ => ⟨S512, .f32⟩
  | .local _ .vmem, ⟨6, _⟩ => ⟨S512, .f32⟩
  | .local _ .vmem, ⟨7, _⟩ => ⟨S512, .f32⟩
  | .local _ .vmem, ⟨8, _⟩ => ⟨S512x512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S512x512, .f32⟩
  | .local _ .vmem, ⟨15, _⟩ => ⟨S512, .f32⟩
  | .local _ .vmem, ⟨16, _⟩ => ⟨S512, .f32⟩
  | .local _ .vmem, ⟨17, _⟩ => ⟨S512, .f32⟩
  | .local _ .vmem, ⟨18, _⟩ => ⟨S512, .f32⟩
  | .local _ .vmem, ⟨19, _⟩ => ⟨S512, .f32⟩
  | .local _ .vmem, ⟨20, _⟩ => ⟨S512x512, .f32⟩
  | .local _ .vmem, ⟨21, _⟩ => ⟨S512, .f32⟩
  | .local _ .vmem, ⟨22, _⟩ => ⟨S512, .f32⟩
  | .local _ .vmem, ⟨23, _⟩ => ⟨S512, .f32⟩
  | .local _ .vmem, ⟨24, _⟩ => ⟨S512, .f32⟩
  | .local _ .vmem, ⟨25, _⟩ => ⟨S512, .f32⟩
  | .local _ .vmem, ⟨26, _⟩ => ⟨S1x1024x512, .f32⟩
  | .local _ .vmem, ⟨27, _⟩ => ⟨S1x1024x512, .f32⟩
  | _, _ => ⟨S8x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg25_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem25_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S512x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 2 → Memref sig .tc .vmem S1x1024x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

class Facts₀ : Prop where
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  slices_S1024x512_o0_0_S1024x64 : S1024x512.Slices ![0, 0] S1024x64
  transposes_S1024x64_p1_0_S64x1024 : S1024x64.Transposes [1, 0] S64x1024
  slices_S1024x512_o0_64_S1024x64 : S1024x512.Slices ![0, 64] S1024x64
  slices_S1024x512_o0_128_S1024x64 : S1024x512.Slices ![0, 128] S1024x64
  slices_S1024x512_o0_192_S1024x64 : S1024x512.Slices ![0, 192] S1024x64
  slices_S1024x512_o0_256_S1024x64 : S1024x512.Slices ![0, 256] S1024x64
  slices_S1024x512_o0_320_S1024x64 : S1024x512.Slices ![0, 320] S1024x64
  slices_S1024x512_o0_384_S1024x64 : S1024x512.Slices ![0, 384] S1024x64
  slices_S1024x512_o0_448_S1024x64 : S1024x512.Slices ![0, 448] S1024x64
  concatenates_S1024x64_S1024x64_S1024x64_S1024x64_S1024x64_S1024x64_S1024x64_S1024x64_S1024x512_d1 : Shape.Concatenates [S1024x64, S1024x64, S1024x64, S1024x64, S1024x64, S1024x64, S1024x64, S1024x64] S1024x512 1
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S8x1024x512.size a
  hwx0_0 : ∀ i : grid0.Coords, EltTy.bits .f32 = 32 ∨ (Rect.block (s := S8x1024x512) S1x1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S512x512.size a
  hwx0_7 : ∀ i : grid0.Coords, EltTy.bits .f32 = 32 ∨ (Rect.block (s := S512x512) S512x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512.size a ≤ S512.size a
  hwx0_8 : ∀ i : grid0.Coords, EltTy.bits .f32 = 32 ∨ (Rect.block (s := S512) S512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512.size a ≤ S512.size a
  hwx0_9 : ∀ i : grid0.Coords, EltTy.bits .f32 = 32 ∨ (Rect.block (s := S512) S512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512.size a ≤ S512.size a
  hwx0_10 : ∀ i : grid0.Coords, EltTy.bits .f32 = 32 ∨ (Rect.block (s := S512) S512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512.size a ≤ S512.size a
  hwx0_11 : ∀ i : grid0.Coords, EltTy.bits .f32 = 32 ∨ (Rect.block (s := S512) S512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S512.size a ≤ S512.size a
  hwx0_12 : ∀ i : grid0.Coords, EltTy.bits .f32 = 32 ∨ (Rect.block (s := S512) S512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S512x512.size a
  hwx0_13 : ∀ i : grid0.Coords, EltTy.bits .f32 = 32 ∨ (Rect.block (s := S512x512) S512x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512.size a ≤ S512.size a
  hwx0_14 : ∀ i : grid0.Coords, EltTy.bits .f32 = 32 ∨ (Rect.block (s := S512) S512.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S512.size a ≤ S512.size a
  hwx0_15 : ∀ i : grid0.Coords, EltTy.bits .f32 = 32 ∨ (Rect.block (s := S512) S512.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S512.size a ≤ S512.size a
  hwx0_16 : ∀ i : grid0.Coords, EltTy.bits .f32 = 32 ∨ (Rect.block (s := S512) S512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S512.size a ≤ S512.size a
  hwx0_17 : ∀ i : grid0.Coords, EltTy.bits .f32 = 32 ∨ (Rect.block (s := S512) S512.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S512.size a ≤ S512.size a
  hwx0_18 : ∀ i : grid0.Coords, EltTy.bits .f32 = 32 ∨ (Rect.block (s := S512) S512.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S512x512.size a ≤ S512x512.size a
  hwx0_19 : ∀ i : grid0.Coords, EltTy.bits .f32 = 32 ∨ (Rect.block (s := S512x512) S512x512.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S512.size a ≤ S512.size a
  hwx0_20 : ∀ i : grid0.Coords, EltTy.bits .f32 = 32 ∨ (Rect.block (s := S512) S512.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S512.size a ≤ S512.size a
  hwx0_21 : ∀ i : grid0.Coords, EltTy.bits .f32 = 32 ∨ (Rect.block (s := S512) S512.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S512.size a ≤ S512.size a
  hwx0_22 : ∀ i : grid0.Coords, EltTy.bits .f32 = 32 ∨ (Rect.block (s := S512) S512.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S512.size a ≤ S512.size a
  hwx0_23 : ∀ i : grid0.Coords, EltTy.bits .f32 = 32 ∨ (Rect.block (s := S512) S512.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S512.size a ≤ S512.size a
  hwx0_24 : ∀ i : grid0.Coords, EltTy.bits .f32 = 32 ∨ (Rect.block (s := S512) S512.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S1x1024x512.size a ≤ S8x1024x512.size a
  hwx0_25 : ∀ i : grid0.Coords, EltTy.bits .f32 = 32 ∨ (Rect.block (s := S8x1024x512) S1x1024x512.size (cc0_transform_25 i) (hinb0_25 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S512x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S512x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S512.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S512.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S512.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S512.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S512.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S512x512.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S512.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S512.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S512.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S512.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S512.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v0) S1x1024x512.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

class Facts : Prop extends Facts₀ where

variable [Facts]
-- ==== ReferenceIdeal.lean ====
abbrev S8x1024x512 : Shape := ⟨3, ![8, 1024, 512]⟩
abbrev S512x512 : Shape := ⟨2, ![512, 512]⟩
abbrev S512 : Shape := ⟨1, ![512]⟩
abbrev S1x1x512 : Shape := ⟨3, ![1, 1, 512]⟩
abbrev S_ : Shape := ⟨0, ![]⟩
abbrev S8x1024x8x64 : Shape := ⟨4, ![8, 1024, 8, 64]⟩
abbrev S8x8x1024x64 : Shape := ⟨4, ![8, 8, 1024, 64]⟩
abbrev S8x8x1024x1024 : Shape := ⟨4, ![8, 8, 1024, 1024]⟩

abbrev nBuf : Space → Nat
  | .hbm => 125
  | .vmem => 0
  | .smem => 0
  | _ => 0

abbrev bufTy : (tb : Table) → Fin (tcTables nBuf tb) → BufTy
  | .hbm, ⟨0, _⟩ => ⟨S8x1024x512, .f32⟩
  | .hbm, ⟨1, _⟩ => ⟨S512x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x512, .f32⟩
  | .hbm, ⟨20, _⟩ => ⟨S512, .f32⟩
  | .hbm, ⟨21, _⟩ => ⟨S512, .f32⟩
  | .hbm, ⟨22, _⟩ => ⟨S512, .f32⟩
  | .hbm, ⟨23, _⟩ => ⟨S512, .f32⟩
  | .hbm, ⟨24, _⟩ => ⟨S512, .f32⟩
  | .hbm, ⟨25, _⟩ => ⟨S8x1024x512, .f32⟩
  | .hbm, ⟨26, _⟩ => ⟨S1x1x512, .f32⟩
  | .hbm, ⟨27, _⟩ => ⟨S8x1024x512, .f32⟩
  | .hbm, ⟨28, _⟩ => ⟨S8x1024x512, .f32⟩
  | .hbm, ⟨29, _⟩ => ⟨S1x1x512, .f32⟩
  | .hbm, ⟨30, _⟩ => ⟨S8x1024x512, .f32⟩
  | .hbm, ⟨31, _⟩ => ⟨S8x1024x512, .f32⟩
  | .hbm, ⟨32, _⟩ => ⟨S_, .f32⟩
  | .hbm, ⟨33, _⟩ => ⟨S512, .f32⟩
  | .hbm, ⟨34, _⟩ => ⟨S512, .f32⟩
  | .hbm, ⟨35, _⟩ => ⟨S512, .f32⟩
  | .hbm, ⟨36, _⟩ => ⟨S512, .f32⟩
  | .hbm, ⟨37, _⟩ => ⟨S1x1x512, .f32⟩
  | .hbm, ⟨38, _⟩ => ⟨S8x1024x512, .f32⟩
  | .hbm, ⟨39, _⟩ => ⟨S8x1024x512, .f32⟩
  | .hbm, ⟨40, _⟩ => ⟨S1x1x512, .f32⟩
  | .hbm, ⟨41, _⟩ => ⟨S8x1024x512, .f32⟩
  | .hbm, ⟨42, _⟩ => ⟨S8x1024x512, .f32⟩
  | .hbm, ⟨43, _⟩ => ⟨S_, .f32⟩
  | .hbm, ⟨44, _⟩ => ⟨S8x1024x512, .f32⟩
  | .hbm, ⟨45, _⟩ => ⟨S8x1024x512, .f32⟩
  | .hbm, ⟨46, _⟩ => ⟨S8x1024x8x64, .f32⟩
  | .hbm, ⟨47, _⟩ => ⟨S8x8x1024x64, .f32⟩
  | .hbm, ⟨48, _⟩ => ⟨S8x1024x512, .f32⟩
  | .hbm, ⟨49, _⟩ => ⟨S1x1x512, .f32⟩
  | .hbm, ⟨50, _⟩ => ⟨S8x1024x512, .f32⟩
  | .hbm, ⟨51, _⟩ => ⟨S8x1024x512, .f32⟩
  | .hbm, ⟨52, _⟩ => ⟨S1x1x512, .f32⟩
  | .hbm, ⟨53, _⟩ => ⟨S8x1024x512, .f32⟩
  | .hbm, ⟨54, _⟩ => ⟨S8x1024x512, .f32⟩
  | .hbm, ⟨55, _⟩ => ⟨S_, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S512, .f32⟩
  | .hbm, ⟨60, _⟩ => ⟨S1x1x512, .f32⟩
  | .hbm, ⟨61, _⟩ => ⟨S8x1024x512, .f32⟩
  | .hbm, ⟨62, _⟩ => ⟨S8x1024x512, .f32⟩
  | .hbm, ⟨63, _⟩ => ⟨S1x1x512, .f32⟩
  | .hbm, ⟨64, _⟩ => ⟨S8x1024x512, .f32⟩
  | .hbm, ⟨65, _⟩ => ⟨S8x1024x512, .f32⟩
  | .hbm, ⟨66, _⟩ => ⟨S_, .f32⟩
  | .hbm, ⟨67, _⟩ => ⟨S8x1024x512, .f32⟩
  | .hbm, ⟨68, _⟩ => ⟨S8x1024x512, .f32⟩
  | .hbm, ⟨69, _⟩ => ⟨S8x1024x8x64, .f32⟩
  | .hbm, ⟨70, _⟩ => ⟨S8x8x1024x64, .f32⟩
  | .hbm, ⟨71, _⟩ => ⟨S8x1024x512, .f32⟩
  | .hbm, ⟨72, _⟩ => ⟨S1x1x512, .f32⟩
  | .hbm, ⟨73, _⟩ => ⟨S8x1024x512, .f32⟩
  | .hbm, ⟨74, _⟩ => ⟨S8x1024x512, .f32⟩
  | .hbm, ⟨75, _⟩ => ⟨S1x1x512, .f32⟩
  | .hbm, ⟨76, _⟩ => ⟨S8x1024x512, .f32⟩
  | .hbm, ⟨77, _⟩ => ⟨S8x1024x512, .f32⟩
  | .hbm, ⟨78, _⟩ => ⟨S_, .f32⟩
  | .hbm, ⟨79, _⟩ => ⟨S512, .f32⟩
  | .hbm, ⟨80, _⟩ => ⟨S512, .f32⟩
  | .hbm, ⟨81, _⟩ => ⟨S512, .f32⟩
  | .hbm, ⟨82, _⟩ => ⟨S512, .f32⟩
  | .hbm, ⟨83, _⟩ => ⟨S1x1x512, .f32⟩
  | .hbm, ⟨84, _⟩ => ⟨S8x1024x512, .f32⟩
  | .hbm, ⟨85, _⟩ => ⟨S8x1024x512, .f32⟩
  | .hbm, ⟨86, _⟩ => ⟨S1x1x512, .f32⟩
  | .hbm, ⟨87, _⟩ => ⟨S8x1024x512, .f32⟩
  | .hbm, ⟨88, _⟩ => ⟨S8x1024x512, .f32⟩
  | .hbm, ⟨89, _⟩ => ⟨S_, .f32⟩
  | .hbm, ⟨90, _⟩ => ⟨S8x1024x512, .f32⟩
  | .hbm, ⟨91, _⟩ => ⟨S8x1024x512, .f32⟩
  | .hbm, ⟨92, _⟩ => ⟨S8x1024x8x64, .f32⟩
  | .hbm, ⟨93, _⟩ => ⟨S8x8x1024x64, .f32⟩
  | .hbm, ⟨94, _⟩ => ⟨S8x8x1024x1024, .f32⟩
  | .hbm, ⟨95, _⟩ => ⟨S_, .f32⟩
  | .hbm, ⟨96, _⟩ => ⟨S8x8x1024x1024, .f32⟩
  | .hbm, ⟨97, _⟩ => ⟨S8x8x1024x1024, .f32⟩
  | .hbm, ⟨98, _⟩ => ⟨S8x8x1024x64, .f32⟩
  | .hbm, ⟨99, _⟩ => ⟨S8x1024x8x64, .f32⟩
  | .hbm, ⟨100, _⟩ => ⟨S8x1024x512, .f32⟩
  | .hbm, ⟨101, _⟩ => ⟨S_, .f32⟩
  | .hbm, ⟨102, _⟩ => ⟨S8x1024x512, .f32⟩
  | .hbm, ⟨103, _⟩ => ⟨S8x1024x512, .f32⟩
  | .hbm, ⟨104, _⟩ => ⟨S8x1024x512, .f32⟩
  | .hbm, ⟨105, _⟩ => ⟨S1x1x512, .f32⟩
  | .hbm, ⟨106, _⟩ => ⟨S8x1024x512, .f32⟩
  | .hbm, ⟨107, _⟩ => ⟨S8x1024x512, .f32⟩
  | .hbm, ⟨108, _⟩ => ⟨S1x1x512, .f32⟩
  | .hbm, ⟨109, _⟩ => ⟨S8x1024x512, .f32⟩
  | .hbm, ⟨110, _⟩ => ⟨S8x1024x512, .f32⟩
  | .hbm, ⟨111, _⟩ => ⟨S_, .f32⟩
  | .hbm, ⟨112, _⟩ => ⟨S512, .f32⟩
  | .hbm, ⟨113, _⟩ => ⟨S512, .f32⟩
  | .hbm, ⟨114, _⟩ => ⟨S512, .f32⟩
  | .hbm, ⟨115, _⟩ => ⟨S512, .f32⟩
  | .hbm, ⟨116, _⟩ => ⟨S1x1x512, .f32⟩
  | .hbm, ⟨117, _⟩ => ⟨S8x1024x512, .f32⟩
  | .hbm, ⟨118, _⟩ => ⟨S8x1024x512, .f32⟩
  | .hbm, ⟨119, _⟩ => ⟨S1x1x512, .f32⟩
  | .hbm, ⟨120, _⟩ => ⟨S8x1024x512, .f32⟩
  | .hbm, ⟨121, _⟩ => ⟨S8x1024x512, .f32⟩
  | .hbm, ⟨122, _⟩ => ⟨S_, .f32⟩
  | .hbm, ⟨123, _⟩ => ⟨S8x1024x512, .f32⟩
  | .hbm, ⟨124, _⟩ => ⟨S8x1024x512, .f32⟩
  | _, _ => ⟨S8x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call0_cst : Ref sig .tc := ⟨.hbm, 43, rfl⟩
abbrev main_call0_v0 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_0 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call1_cst : Ref sig .tc := ⟨.hbm, 66, rfl⟩
abbrev main_call1_v0 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_1 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_call2_cst : Ref sig .tc := ⟨.hbm, 89, rfl⟩
abbrev main_call2_v0 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_2 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_call3_cst : Ref sig .tc := ⟨.hbm, 101, rfl⟩
abbrev main_call3_v0 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_3 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_call4_cst : Ref sig .tc := ⟨.hbm, 122, rfl⟩
abbrev main_call4_v0 : Ref sig .tc := ⟨.hbm, 123, rfl⟩
abbrev main_v84 : Ref sig .tc := ⟨.hbm, 124, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x1024x512_0_1_2 : S1x1x512.BroadcastsInDim S8x1024x512 (![0, 1, 2] : Fin 3 → Fin S8x1024x512.rank)
  bcast_S_S512 : S_.BroadcastsInDim S512 (![] : Fin 0 → Fin S512.rank)
  bcast_S_S8x1024x512 : S_.BroadcastsInDim S8x1024x512 (![] : Fin 0 → Fin S8x1024x512.rank)
  shapeCasts_S8x1024x512_S8x1024x8x64 : S8x1024x512.ShapeCasts S8x1024x8x64
  transposes_S8x1024x8x64_S8x8x1024x64_0_2_1_3 : S8x1024x8x64.Transposes [0, 2, 1, 3] S8x8x1024x64
  bcast_S_S8x8x1024x1024 : S_.BroadcastsInDim S8x8x1024x1024 (![] : Fin 0 → Fin S8x8x1024x1024.rank)
  transposes_S8x8x1024x64_S8x1024x8x64_0_2_1_3 : S8x8x1024x64.Transposes [0, 2, 1, 3] S8x1024x8x64
  shapeCasts_S8x1024x8x64_S8x1024x512 : S8x1024x8x64.ShapeCasts S8x1024x512
  dot_S8x1024x512_S512x512_S8x1024x512_2_1_01_0_n_n_wf : DotDims.WF S8x1024x512 S512x512 S8x1024x512 [2] [1] [0, 1] [0] [] []
  dot_S8x8x1024x64_S8x8x1024x64_S8x8x1024x1024_3_3_2_2_01_01_wf : DotDims.WF S8x8x1024x64 S8x8x1024x64 S8x8x1024x1024 [3] [3] [2] [2] [0, 1] [0, 1]
  dot_S8x8x1024x1024_S8x8x1024x64_S8x8x1024x64_3_2_2_3_01_01_wf : DotDims.WF S8x8x1024x1024 S8x8x1024x64 S8x8x1024x64 [3] [2] [2] [3] [0, 1] [0, 1]

variable [Facts₀]

def dot_S8x1024x512_S512x512_S8x1024x512_2_1_01_0_n_n : DotDims S8x1024x512 S512x512 S8x1024x512 where
  lhsContracting := [2]
  rhsContracting := [1]
  lhsNonContracting := [0, 1]
  rhsNonContracting := [0]
  lhsBatch := []
  rhsBatch := []
  wf := dot_S8x1024x512_S512x512_S8x1024x512_2_1_01_0_n_n_wf
def dot_S8x8x1024x64_S8x8x1024x64_S8x8x1024x1024_3_3_2_2_01_01 : DotDims S8x8x1024x64 S8x8x1024x64 S8x8x1024x1024 where
  lhsContracting := [3]
  rhsContracting := [3]
  lhsNonContracting := [2]
  rhsNonContracting := [2]
  lhsBatch := [0, 1]
  rhsBatch := [0, 1]
  wf := dot_S8x8x1024x64_S8x8x1024x64_S8x8x1024x1024_3_3_2_2_01_01_wf
def dot_S8x8x1024x1024_S8x8x1024x64_S8x8x1024x64_3_2_2_3_01_01 : DotDims S8x8x1024x1024 S8x8x1024x64 S8x8x1024x64 where
  lhsContracting := [3]
  rhsContracting := [2]
  lhsNonContracting := [2]
  rhsNonContracting := [3]
  lhsBatch := [0, 1]
  rhsBatch := [0, 1]
  wf := dot_S8x8x1024x1024_S8x8x1024x64_S8x8x1024x64_3_2_2_3_01_01_wf

class Facts : Prop extends Facts₀ where

variable [Facts]
-- ==== Proof.BnScale.lean ====
/-
  The batch-norm scale, on the extended reals.

  The kernel forms the scale as `g · rsqrt(var + ε)`, the reference as `g / sqrt(var + ε)`, with the same
  word for `ε` (the f32 nearest 1e-5, a positive real). For a variance entry that is a non-negative real,
  `var + ε` is a positive real `r`, its square root is a nonzero real, and both forms are the product of `g`
  with the real `1 / √r` — whatever extended real `g` is.
-/
import Idealize.ShloMosaic.PureOps.Ideal

noncomputable section

namespace Cert.BnScale

open Idealize.ShloMosaic

/-- The word `0x3727C5AC` denotes the positive real `10995116 / 2^40`. -/
theorem eps_pos : ∃ e : ℝ, 0 < e ∧ Ideal.ofBits .f32 0x3727C5AC#32 = (e : EReal) := by
  refine ⟨10995116 / 2 ^ 40, by norm_num, ?_⟩
  simp [Ideal.ofBits, Ideal.ieee, -EReal.coe_mul]; norm_num

/-- For a variance entry `v` that is a non-negative real, dividing by the square root of `v + ε` is
    multiplying by its reciprocal square root. -/
theorem div_sqrt_eq_mul_rsqrt (g v : EReal) (hv0 : 0 ≤ v) (hvtop : v ≠ ⊤) :
    Ideal.div g (Ideal.sqrt (v + Ideal.ofBits .f32 0x3727C5AC#32))
      = g * Ideal.rsqrt (v + Ideal.ofBits .f32 0x3727C5AC#32) := by
  obtain ⟨e, he, hE⟩ := eps_pos
  have hvbot : v ≠ ⊥ := fun h => by rw [h] at hv0; exact absurd hv0 (by simp)
  lift v to ℝ using ⟨hvtop, hvbot⟩
  have hv : (0 : ℝ) ≤ v := by exact_mod_cast hv0
  have hr : 0 < v + e := by linarith
  rw [hE, ← EReal.coe_add, Ideal.sqrt_coe, Ideal.rsqrt_coe, if_neg (not_lt.2 hr.le), if_neg (not_lt.2 hr.le),
    if_neg hr.ne', Ideal.div_coe (Real.sqrt_pos.2 hr).ne', one_div]

end Cert.BnScale

end
-- ==== Proof.PreFacts.lean ====
/-
  What the precondition says of the four stored-variance arrays.

  The precondition is a conjunction, over all 25 inputs, of "every entry has absolute value below +∞", followed by
  "every entry is at least 0" for the four variance arrays. Of this the proof needs only: each variance entry is
  non-negative and is not +∞.
-/
import proofs.«177937_j85633057947962_1_alg».proof.Pre_finite_inputs
import Idealize.ShloMosaic.Lib.ReduceAll
import Idealize.ShloMosaic.Lib.ValueIdx
import Idealize.ShloMosaic.PureOps.Ideal.Laws

set_option maxRecDepth 16384

noncomputable section

namespace Cert.PreFacts

open Idealize.ShloMosaic Cert.Pre_finite_inputs

variable [Cert.Pre_finite_inputs.Facts]

instance : Subsingleton S_.Idx := ⟨fun _ _ => funext fun d => d.elim0⟩

theorem and1 : ∀ (a b : BitVec 1), IntOp.andi a b = 1#1 ↔ a = 1#1 ∧ b = 1#1 := by decide
theorem ofBool_eq_one (b : Bool) : BitVec.ofBool b = 1#1 ↔ b = true := by cases b <;> decide

/-- The word `0x7F800000` denotes `+∞`. -/
theorem ofBits_inf : Ideal.ofBits .f32 0x7F800000#32 = ⊤ := by
  simp [Ideal.ofBits, Ideal.ieee]

/-- An entry compared "at least `0.0`" and found so is non-negative. -/
theorem nonneg_of_cmp (x : EReal) (h : Ideal.cmp .oge x (Ideal.ofBits .f32 0x00000000#32) = 1#1) : 0 ≤ x := by
  rw [Ideal.ofBits_zero_f32] at h
  simpa [Ideal.cmp, ofBool_eq_one] using h

/-- An entry whose absolute value compared "below `+∞`" and was found so is not `+∞`. -/
theorem ne_top_of_cmp (x : EReal) (h : Ideal.cmp .olt (max x (-x)) (Ideal.ofBits .f32 0x7F800000#32) = 1#1) : x ≠ ⊤ := by
  rw [ofBits_inf] at h
  rintro rfl
  simp [Ideal.cmp, ofBool_eq_one] at h

theorem var_facts (a0 : FVec Ideal S8x1024x512 .f32) (a1 : FVec Ideal S512x512 .f32) (a2 a3 a4 a5 a6 : FVec Ideal S512 .f32)
    (a7 : FVec Ideal S512x512 .f32) (a8 a9 a10 a11 a12 : FVec Ideal S512 .f32)
    (a13 : FVec Ideal S512x512 .f32) (a14 a15 a16 a17 a18 : FVec Ideal S512 .f32)
    (a19 : FVec Ideal S512x512 .f32) (a20 a21 a22 a23 a24 : FVec Ideal S512 .f32)
    (h : fn (F := Ideal) a0 a1 a2 a3 a4 a5 a6 a7 a8 a9 a10 a11 a12 a13 a14 a15 a16 a17 a18 a19 a20 a21 a22 a23 a24 = fun _ => 1#1) :
    (∀ i, 0 ≤ a6 i ∧ a6 i ≠ ⊤) ∧ (∀ i, 0 ≤ a12 i ∧ a12 i ≠ ⊤) ∧ (∀ i, 0 ≤ a18 i ∧ a18 i ≠ ⊤) ∧ (∀ i, 0 ≤ a24 i ∧ a24 i ≠ ⊤) := by
  have e := congrFun h ValueIdx.ix0
  unfold fn fn_part1 fn_part2 fn_part3 fn_part4 fn_part5 fn_part6 fn_part7 fn_part8 at e
  simp only [andi] at e
  simp only [and1] at e
  obtain ⟨⟨⟨⟨⟨⟨⟨⟨⟨⟨⟨⟨⟨⟨⟨⟨⟨⟨⟨⟨⟨⟨⟨⟨⟨⟨⟨⟨-, -⟩, -⟩, -⟩, -⟩, -⟩, h7⟩, -⟩, -⟩, -⟩, -⟩, -⟩, h13⟩, -⟩, -⟩, -⟩, -⟩, -⟩, h19⟩, -⟩, -⟩, -⟩, -⟩, -⟩, h25⟩, h26⟩, h27⟩, h28⟩, h29⟩ := e
  exact ⟨fun i => ⟨nonneg_of_cmp _ (Host.reduce_andi_all _ _ _ _ _ h26 i), ne_top_of_cmp _ (Host.reduce_andi_all _ _ _ _ _ h7 i)⟩,
    fun i => ⟨nonneg_of_cmp _ (Host.reduce_andi_all _ _ _ _ _ h27 i), ne_top_of_cmp _ (Host.reduce_andi_all _ _ _ _ _ h13 i)⟩,
    fun i => ⟨nonneg_of_cmp _ (Host.reduce_andi_all _ _ _ _ _ h28 i), ne_top_of_cmp _ (Host.reduce_andi_all _ _ _ _ _ h19 i)⟩,
    fun i => ⟨nonneg_of_cmp _ (Host.reduce_andi_all _ _ _ _ _ h29 i), ne_top_of_cmp _ (Host.reduce_andi_all _ _ _ _ _ h25 i)⟩⟩

end Cert.PreFacts

end
-- ==== Proof.Spec.lean ====
/-
  What the block computes, entry by entry, on the extended reals.

  One batch element `x` (1024 rows of 512 channels) goes through three layers "linear map, batch norm with stored
  statistics, ReLU" giving `q`, `k`, `v`; the 512 channels are 8 heads of 64 lanes (channel `64 h + e` is lane `e` of
  head `h`); per head the scores `s[n, m] = (Σ_e q[n, e] · k[m, e]) · 1/8` are used WITHOUT a softmax,
  `o[n, e] = Σ_m s[n, m] · v[m, e]`; the heads side by side, a ReLU, and a fourth such layer give the result.

  The batch norm's per-channel scale is a parameter here: the two programs form it differently (a product with a
  reciprocal square root, a quotient by a square root), and everything else in the block is the same expression of it.
-/
import Idealize.ShloMosaic.PureOps.Ideal

noncomputable section

namespace Cert.Spec

open Idealize.ShloMosaic
open scoped BigOperators

/-- The words the two programs share: `0.0`, the batch norm's `ε` (the f32 nearest `1e-5`), and `1/8`. -/
abbrev zero32 : EReal := Ideal.ofBits .f32 0x00000000#32
abbrev eps32 : EReal := Ideal.ofBits .f32 0x3727C5AC#32
abbrev eighth32 : EReal := Ideal.ofBits .f32 0x3E000000#32

/-- Channel `64 h + e`: lane `e` of head `h`. -/
def lane (h : Fin 8) (e : Fin 64) : Fin 512 := ⟨64 * h.val + e.val, by have := h.isLt; have := e.isLt; omega⟩

/-- The head a channel belongs to, and its lane there. -/
def headOf (c : Fin 512) : Fin 8 := ⟨c.val / 64, by have := c.isLt; omega⟩
def laneOf (c : Fin 512) : Fin 64 := ⟨c.val % 64, Nat.mod_lt _ (by norm_num)⟩

/-- One layer's parameters: the weight `w[d, c]` (output channel first), the bias, and the batch norm's gain,
    shift, stored mean and stored variance. -/
structure Layer where
  w : Fin 512 → Fin 512 → EReal
  b : Fin 512 → EReal
  g : Fin 512 → EReal
  beta : Fin 512 → EReal
  mu : Fin 512 → EReal
  var : Fin 512 → EReal

/-- The scale as a product with the reciprocal square root. -/
def scaleMul (L : Layer) (d : Fin 512) : EReal := L.g d * Ideal.rsqrt (L.var d + eps32)

/-- The scale as a quotient by the square root. -/
def scaleDiv (L : Layer) (d : Fin 512) : EReal := Ideal.div (L.g d) (Ideal.sqrt (L.var d + eps32))

/-- Linear map, batch norm at scale `sc`, ReLU: entry `(n, d)` is
    `max (((Σ_c x[n, c] · w[d, c]) + b[d] − μ[d]) · sc[d] + β[d]) 0`. -/
def layer (sc : Layer → Fin 512 → EReal) (L : Layer) (x : Fin 1024 → Fin 512 → EReal) (n : Fin 1024) (d : Fin 512) : EReal :=
  max (((∑ c : Fin 512, x n c * L.w d c) + L.b d - L.mu d) * sc L d + L.beta d) zero32

/-- Attention without softmax: row `n`, lane `e` of head `h`. -/
def attn (q k v : Fin 1024 → Fin 512 → EReal) (n : Fin 1024) (h : Fin 8) (e : Fin 64) : EReal :=
  ∑ m : Fin 1024, ((∑ e' : Fin 64, q n (lane h e') * k m (lane h e')) * eighth32) * v m (lane h e)

/-- The whole block on one batch element: entry `(n, d)` of the result. -/
def block (sc : Layer → Fin 512 → EReal) (Lq Lk Lv Lp : Layer) (x : Fin 1024 → Fin 512 → EReal) (n : Fin 1024) (d : Fin 512) : EReal :=
  layer sc Lp (fun n c => max (attn (layer sc Lq x) (layer sc Lk x) (layer sc Lv x) n (headOf c) (laneOf c)) zero32) n d

/-- A layer whose two forms of the scale agree is the same function under either. -/
theorem layer_congr (L : Layer) (h : scaleDiv L = scaleMul L) : layer scaleDiv L = layer scaleMul L := by
  funext x n d
  simp only [layer, h]

/-- If the two forms of the scale agree on every layer, the block is the same function under either. -/
theorem block_congr (Lq Lk Lv Lp : Layer) (hq : scaleDiv Lq = scaleMul Lq) (hk : scaleDiv Lk = scaleMul Lk)
    (hv : scaleDiv Lv = scaleMul Lv) (hp : scaleDiv Lp = scaleMul Lp) (x : Fin 1024 → Fin 512 → EReal) :
    block scaleDiv Lq Lk Lv Lp x = block scaleMul Lq Lk Lv Lp x := by
  unfold block
  rw [layer_congr Lq hq, layer_congr Lk hk, layer_congr Lv hv, layer_congr Lp hp]

end Cert.Spec

end
-- ==== Proof.Arrays.lean ====
/-
  The block's operands as arrays, and its result as one array.

  The programs hold the input as an `[8, 1024, 512]` array, each weight as a `[512, 512]` array and each bias or
  batch-norm vector as a `[512]` array; here they are read by coordinates, and the result array's entry
  `(b, n, d)` is the block of batch element `b` at `(n, d)`.
-/
import proofs.«177937_j85633057947962_1_alg».proof.Proof.Spec
import Idealize.ShloMosaic.Lib.ValueIdx

noncomputable section

namespace Cert.Spec

open Idealize.ShloMosaic Idealize.ShloMosaic.ValueIdx

/-- A matrix, a vector, and one slab of a rank-3 array, by coordinates. -/
abbrev mat {a b : Nat} (X : (⟨2, ![a, b]⟩ : Shape).Idx → EReal) (i : Fin a) (j : Fin b) : EReal := X (ix2 i j)
abbrev vec {a : Nat} (X : (⟨1, ![a]⟩ : Shape).Idx → EReal) (i : Fin a) : EReal := X (ix1 i)
abbrev slab {a b c : Nat} (X : (⟨3, ![a, b, c]⟩ : Shape).Idx → EReal) (p : Fin a) (i : Fin b) (j : Fin c) : EReal :=
  X (ix3 p i j)

/-- A layer's six parameter arrays as a `Layer`. -/
abbrev layerOf (W : (⟨2, ![512, 512]⟩ : Shape).Idx → EReal) (B G Beta Mu Var : (⟨1, ![512]⟩ : Shape).Idx → EReal) : Layer :=
  ⟨mat W, vec B, vec G, vec Beta, vec Mu, vec Var⟩

/-- The result array: entry `(b, n, d)` is the block of batch element `b` at `(n, d)`. -/
def result (sc : Layer → Fin 512 → EReal) (X : (⟨3, ![8, 1024, 512]⟩ : Shape).Idx → EReal) (Lq Lk Lv Lp : Layer) :
    (⟨3, ![8, 1024, 512]⟩ : Shape).Idx → EReal :=
  fun i => block sc Lq Lk Lv Lp (slab X (i 0)) (i 1) (i 2)

end Cert.Spec

end
-- ==== Proof.LibMatmulPlain.lean ====
/-
  A plain matrix product read at one entry, on the extended reals.

  For the dimension numbers of an `[M, K]` by `[K, N]` product (contract the left operand's columns with the right
  operand's rows, no batch axis), the matrix unit's product accumulated into a zero block, and the host's
  `dot_general`, are both, at entry `(r, s)`, the sum over `k` of `lhs[r, k] · rhs[k, s]`: the contraction index
  has one coordinate, and the operand indices at `(r, s)` and `k` are `(r, k)` and `(k, s)`.
-/
import Idealize.ShloMosaic.PureOps.Ideal.Laws
import Idealize.ShloMosaic.Lib.ValueIdx

noncomputable section

open scoped BigOperators
open Idealize.ShloMosaic Idealize.ShloMosaic.ValueIdx

namespace Cert.MatmulPlain

variable {M K N : Nat}

/-- The left operand's index at output `(r, s)` and contraction coordinate `k` is `(r, k)`. -/
theorem lhsIdx_plain (r : Fin M) (s : Fin N) (k : Fin K) :
    (DotDims.plain M K N).lhsIdx (ix2 r s) ((contrEquiv1 (DotDims.plain M K N) K rfl rfl).symm k) = ix2 r k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 r s) _).trans hk

/-- The right operand's index there is `(k, s)`. -/
theorem rhsIdx_plain (r : Fin M) (s : Fin N) (k : Fin K) :
    (DotDims.plain M K N).rhsIdx (ix2 r s) ((contrEquiv1 (DotDims.plain M K N) K rfl rfl).symm k) = ix2 k s := by
  have hk := contrEquiv1_symm_val (DotDims.plain M K N) K rfl rfl k
  funext a
  refine Fin.ext ?_
  match a with
  | ⟨0, _⟩ => exact ((DotDims.plain M K N).rhsIdx_val_of_single rfl (ix2 r s) _).trans hk
  | ⟨1, _⟩ => rfl

/-- The matrix unit's product into a zero accumulator, at entry `(r, s)`: `Σ_k lhs[r, k] · rhs[k, s]`. -/
theorem matmul_zero_apply {φ₁ φ₂ : FTy} (prec : Option ContractPrecision)
    (lhs : FVec Ideal ⟨2, ![M, K]⟩ φ₁) (rhs : FVec Ideal ⟨2, ![K, N]⟩ φ₂) (r : Fin M) (s : Fin N) :
    FloatOps.matmul (DotDims.plain M K N) prec lhs rhs (constant ⟨2, ![M, N]⟩ .f32 0x00000000#32) (ix2 r s)
      = ∑ k : Fin K, lhs (ix2 r k) * rhs (ix2 k s) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (s : Fin N) :
    FloatOps.dotGeneral (DotDims.plain M K N) prec sched lhs rhs (ix2 r s)
      = ∑ k : Fin K, lhs (ix2 r k) * rhs (ix2 k s) := by
  rw [Ideal.dotGeneral_apply, ← Equiv.sum_comp (contrEquiv1 (DotDims.plain M K N) K rfl rfl).symm]
  refine Finset.sum_congr rfl fun k _ => ?_
  rw [lhsIdx_plain, rhsIdx_plain]

end Cert.MatmulPlain

end
-- ==== Proof.KernelRead.lean ====
/-
  The kernel body's result at one entry.

  At a grid point the body holds one batch element as a `[1, 1024, 512]` block and every parameter array whole. Its
  three products are plain matrix products `[M, K] · [K, N]`; a weight enters transposed, so a layer's product at
  `(n, d)` is `Σ_c x[n, c] · w[d, c]`; a head's columns are a 64-wide slice at offset `64 h`, its keys enter
  transposed, so the scores are `Σ_e q[n, 64h+e] · k[m, 64h+e]`; the eight heads' outputs are laid side by side. Changes
  of float format are the identity on the extended reals. So the block the body stores is, at `(0, n, d)`, the
  block function of the specification with the scale formed as a product.
-/
import proofs.«177937_j85633057947962_1_alg».proof.Proof.Gen.KernelIdeal.Frame
import proofs.«177937_j85633057947962_1_alg».proof.Proof.Arrays
import proofs.«177937_j85633057947962_1_alg».proof.Proof.LibMatmulPlain
import Idealize.ShloMosaic.Lib.ValueLayout
import Idealize.ShloMosaic.Lib.Pipeline.Value

set_option maxRecDepth 16384

noncomputable section

namespace Cert.KernelIdeal.Body

open Cert.KernelIdeal Cert.KernelIdeal.Gen Idealize.ShloMosaic Idealize.ShloMosaic.ValueIdx Cert.Spec
open scoped BigOperators

variable [Facts]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The three products -/

/-- The three products of the body are plain matrix products. -/
theorem layerDims_eq : dot_S1024x512_S512x512_S1024x512_1_0_0_1_n_n = DotDims.plain 1024 512 512 := rfl
theorem scoreDims_eq : dot_S1024x64_S64x1024_S1024x1024_1_0_0_1_n_n = DotDims.plain 1024 64 1024 := rfl
theorem mixDims_eq : dot_S1024x1024_S1024x64_S1024x64_1_0_0_1_n_n = DotDims.plain 1024 1024 64 := rfl

/-- A layer's product at `(n, d)`. -/
theorem layer_matmul_apply (l : FVec Ideal S1024x512 .bf16) (r : FVec Ideal S512x512 .bf16) (n : Fin 1024) (d : Fin 512) :
    matmul dot_S1024x512_S512x512_S1024x512_1_0_0_1_n_n none l r (constant S1024x512 .f32 0x00000000#32) (ix2 n d)
      = ∑ c : Fin 512, l (ix2 n c) * r (ix2 c d) := by
  rw [layerDims_eq]; exact Cert.MatmulPlain.matmul_zero_apply none l r n d

/-- A head's scores at `(n, m)`. -/
theorem score_matmul_apply (l : FVec Ideal S1024x64 .bf16) (r : FVec Ideal S64x1024 .bf16) (n m : Fin 1024) :
    matmul dot_S1024x64_S64x1024_S1024x1024_1_0_0_1_n_n none l r (constant S1024x1024 .f32 0x00000000#32) (ix2 n m)
      = ∑ e : Fin 64, l (ix2 n e) * r (ix2 e m) := by
  rw [scoreDims_eq]; exact Cert.MatmulPlain.matmul_zero_apply none l r n m

/-- A head's output at `(n, e)`. -/
theorem mix_matmul_apply (l : FVec Ideal S1024x1024 .bf16) (r : FVec Ideal S1024x64 .bf16) (n : Fin 1024) (e : Fin 64) :
    matmul dot_S1024x1024_S1024x64_S1024x64_1_0_0_1_n_n none l r (constant S1024x64 .f32 0x00000000#32) (ix2 n e)
      = ∑ m : Fin 1024, l (ix2 n m) * r (ix2 m e) := by
  rw [mixDims_eq]; exact Cert.MatmulPlain.matmul_zero_apply none l r n e

/-- A transposed weight at `(c, d)` is the weight at `(d, c)`; transposed keys at `(e, m)` are the keys at `(m, e)`. -/
theorem weightT_apply (w : FVec Ideal S512x512 .bf16) (c d : Fin 512) :
    transpose S512x512 [1, 0] w transposes_S512x512_p1_0_S512x512 (ix2 c d) = w (ix2 d c) :=
  transpose_ix2_apply w transposes_S512x512_p1_0_S512x512 c d
theorem keysT_apply (k : FVec Ideal S1024x64 .bf16) (e : Fin 64) (m : Fin 1024) :
    transpose S64x1024 [1, 0] k transposes_S1024x64_p1_0_S64x1024 (ix2 e m) = k (ix2 m e) :=
  transpose_ix2_apply k transposes_S1024x64_p1_0_S64x1024 e m

/-- The reciprocal square root is taken entry by entry. -/
theorem rsqrt_apply {s : Shape} {φ : FTy} (a : FVec Ideal s φ) (i : s.Idx) : rsqrt a i = Ideal.rsqrt (a i) := rfl

/-! ## A layer -/

/-- The body's text of one layer: product with the transposed weight, bias, mean, scale `g · rsqrt(var + ε)`, shift,
    ReLU — over a `[1024, 512]` operand and the layer's parameter vectors, each broadcast along the rows. -/
def layerTree (xb : FVec Ideal S1024x512 .bf16) (w : Vec Ideal S512x512 .f32) (b g var mu beta : Vec Ideal S512 .f32) :
    FVec Ideal S1024x512 .f32 :=
  maximumf
    (addf
      (mulf
        (subf
          (addf
            (matmul dot_S1024x512_S512x512_S1024x512_1_0_0_1_n_n none xb
              (transpose S512x512 [1, 0] (truncf .bf16 w bitsLt_bf16_f32) transposes_S512x512_p1_0_S512x512)
              (constant S1024x512 .f32 0x00000000#32))
            (broadcastTo S1024x512 (shapeCast S1x512 b shapeCasts_S512_S1x512) broadcasts_S1x512_S1024x512))
          (broadcastTo S1024x512 (shapeCast S1x512 mu shapeCasts_S512_S1x512) broadcasts_S1x512_S1024x512))
        (broadcastTo S1024x512
          (shapeCast S1x512 (mulf g (rsqrt (addf var (broadcast S512 (Scalar.ofBits .f32 0x3727C5AC#32))))) shapeCasts_S512_S1x512)
          broadcasts_S1x512_S1024x512))
      (broadcastTo S1024x512 (shapeCast S1x512 beta shapeCasts_S512_S1x512) broadcasts_S1x512_S1024x512))
    (broadcast S1024x512 (Scalar.ofBits .f32 0x00000000#32))

/-- It is the specification's layer, with the scale as a product. -/
theorem layerTree_apply (xb : FVec Ideal S1024x512 .bf16) (w : Vec Ideal S512x512 .f32) (b g var mu beta : Vec Ideal S512 .f32)
    (n : Fin 1024) (d : Fin 512) :
    layerTree xb w b g var mu beta (ix2 n d) = layer scaleMul (layerOf w b g beta mu var) (mat xb) n d := by
  unfold layerTree
  simp only [maximumf_apply, addf_apply, mulf_apply, subf_apply, broadcast_apply, broadcastTo_1b_ab_apply, shapeCast_a_1a_apply,
    layer_matmul_apply, truncf_apply, rsqrt_apply]
  rw [Finset.sum_congr rfl fun c _ => congrArg (xb (ix2 n c) * ·)
    (weightT_apply (truncf (F := Ideal) .bf16 w bitsLt_bf16_f32) c d)]
  rfl

theorem mat_layerTree (xb : FVec Ideal S1024x512 .bf16) (w : Vec Ideal S512x512 .f32) (b g var mu beta : Vec Ideal S512 .f32) :
    mat (layerTree xb w b g var mu beta) = layer scaleMul (layerOf w b g beta mu var) (mat xb) :=
  funext fun n => funext fun d => layerTree_apply xb w b g var mu beta n d

/-! ## A head -/

/-- The body's text of one head, at slice offset `o` of the 512 channels. -/
def headTree (o : Nat) (hs : S1024x512.Slices ![0, o] S1024x64) (Q K V : FVec Ideal S1024x512 .f32) : FVec Ideal S1024x64 .f32 :=
  matmul dot_S1024x1024_S1024x64_S1024x64_1_0_0_1_n_n none
    (truncf .bf16
      (mulf
        (matmul dot_S1024x64_S64x1024_S1024x1024_1_0_0_1_n_n none
          (truncf .bf16 (extractStridedSlice S1024x64 ![0, o] Q hs) bitsLt_bf16_f32)
          (transpose S64x1024 [1, 0] (truncf .bf16 (extractStridedSlice S1024x64 ![0, o] K hs) bitsLt_bf16_f32) transposes_S1024x64_p1_0_S64x1024)
          (constant S1024x1024 .f32 0x00000000#32))
        (broadcast S1024x1024 (Scalar.ofBits .f32 0x3E000000#32)))
      bitsLt_bf16_f32)
    (truncf .bf16 (extractStridedSlice S1024x64 ![0, o] V hs) bitsLt_bf16_f32)
    (constant S1024x64 .f32 0x00000000#32)

/-- Its entry `(n, e)`: the scaled scores of row `n` against every row `m`, times the values, on channels `o + ·`. -/
theorem headTree_apply (o : Nat) (hs : S1024x512.Slices ![0, o] S1024x64) (Q K V : FVec Ideal S1024x512 .f32) (n : Fin 1024) (e : Fin 64) :
    headTree o hs Q K V (ix2 n e)
      = ∑ m : Fin 1024, ((∑ e' : Fin 64,
            Q (ix2 n ⟨o + e'.val, Nat.lt_of_lt_of_le (Nat.add_lt_add_left e'.isLt o) (hs.2 1)⟩)
              * K (ix2 m ⟨o + e'.val, Nat.lt_of_lt_of_le (Nat.add_lt_add_left e'.isLt o) (hs.2 1)⟩)) * eighth32)
          * V (ix2 m ⟨o + e.val, Nat.lt_of_lt_of_le (Nat.add_lt_add_left e.isLt o) (hs.2 1)⟩) := by
  unfold headTree
  simp only [mix_matmul_apply, score_matmul_apply, truncf_apply, mulf_apply, broadcast_apply, slice2_axis1_eq]
  refine Finset.sum_congr rfl fun m _ => ?_
  have hK : ∀ e' : Fin 64,
      transpose S64x1024 [1, 0] (truncf (F := Ideal) .bf16 (extractStridedSlice S1024x64 ![0, o] K hs) bitsLt_bf16_f32)
          transposes_S1024x64_p1_0_S64x1024 (ix2 e' m)
        = K (ix2 m ⟨o + e'.val, Nat.lt_of_lt_of_le (Nat.add_lt_add_left e'.isLt o) (hs.2 1)⟩) := fun e' => by
    rw [keysT_apply]
    exact slice2_axis1_eq o K hs m e'
  rw [Finset.sum_congr rfl fun (e' : Fin 64) _ => congrArg
    (Q (ix2 n ⟨o + e'.val, Nat.lt_of_lt_of_le (Nat.add_lt_add_left e'.isLt o) (hs.2 1)⟩) * ·) (hK e')]
  rfl

/-- The eight heads side by side. -/
def headsTree (Q K V : FVec Ideal S1024x512 .f32) : FVec Ideal S1024x512 .f32 :=
  concatenate S1024x512 1 [⟨S1024x64, headTree 0 slices_S1024x512_o0_0_S1024x64 Q K V⟩, ⟨S1024x64, headTree 64 slices_S1024x512_o0_64_S1024x64 Q K V⟩, ⟨S1024x64, headTree 128 slices_S1024x512_o0_128_S1024x64 Q K V⟩, ⟨S1024x64, headTree 192 slices_S1024x512_o0_192_S1024x64 Q K V⟩, ⟨S1024x64, headTree 256 slices_S1024x512_o0_256_S1024x64 Q K V⟩, ⟨S1024x64, headTree 320 slices_S1024x512_o0_320_S1024x64 Q K V⟩, ⟨S1024x64, headTree 384 slices_S1024x512_o0_384_S1024x64 Q K V⟩, ⟨S1024x64, headTree 448 slices_S1024x512_o0_448_S1024x64 Q K V⟩] concatenates_S1024x64_S1024x64_S1024x64_S1024x64_S1024x64_S1024x64_S1024x64_S1024x64_S1024x512_d1

/-- At `(n, c)` it is head `c / 64` at lane `c % 64`: the specification's attention. -/
theorem headsTree_apply (Q K V : FVec Ideal S1024x512 .f32) (n : Fin 1024) (c : Fin 512) :
    headsTree Q K V (ix2 n c) = attn (mat Q) (mat K) (mat V) n (headOf c) (laneOf c) := by
  have hc : c = lane (headOf c) (laneOf c) := Fin.ext (by show c.val = 64 * (c.val / 64) + c.val % 64; omega)
  generalize headOf c = h at hc
  generalize laneOf c = e at hc
  subst hc
  unfold headsTree
  have piece : ∀ (k : Nat) (hk : k < 8) (hs : S1024x512.Slices ![0, 64 * k] S1024x64),
      ([⟨S1024x64, headTree 0 slices_S1024x512_o0_0_S1024x64 Q K V⟩, ⟨S1024x64, headTree 64 slices_S1024x512_o0_64_S1024x64 Q K V⟩, ⟨S1024x64, headTree 128 slices_S1024x512_o0_128_S1024x64 Q K V⟩, ⟨S1024x64, headTree 192 slices_S1024x512_o0_192_S1024x64 Q K V⟩, ⟨S1024x64, headTree 256 slices_S1024x512_o0_256_S1024x64 Q K V⟩, ⟨S1024x64, headTree 320 slices_S1024x512_o0_320_S1024x64 Q K V⟩, ⟨S1024x64, headTree 384 slices_S1024x512_o0_384_S1024x64 Q K V⟩, ⟨S1024x64, headTree 448 slices_S1024x512_o0_448_S1024x64 Q K V⟩] : List ((s : Shape) × (s.Idx → EReal)))[k]'hk = ⟨S1024x64, headTree (64 * k) hs Q K V⟩ →
      (((([⟨S1024x64, headTree 0 slices_S1024x512_o0_0_S1024x64 Q K V⟩, ⟨S1024x64, headTree 64 slices_S1024x512_o0_64_S1024x64 Q K V⟩, ⟨S1024x64, headTree 128 slices_S1024x512_o0_128_S1024x64 Q K V⟩, ⟨S1024x64, headTree 192 slices_S1024x512_o0_192_S1024x64 Q K V⟩, ⟨S1024x64, headTree 256 slices_S1024x512_o0_256_S1024x64 Q K V⟩, ⟨S1024x64, headTree 320 slices_S1024x512_o0_320_S1024x64 Q K V⟩, ⟨S1024x64, headTree 384 slices_S1024x512_o0_384_S1024x64 Q K V⟩, ⟨S1024x64, headTree 448 slices_S1024x512_o0_448_S1024x64 Q K V⟩] : List ((s : Shape) × (s.Idx → EReal))).take k).map (·.1)).map
        fun s => if h : s.rank = S1024x512.rank then s.size ((1 : Fin 2).cast h.symm) else 0).sum = 64 * k →
      h.val = k →
      concatenate S1024x512 1 [⟨S1024x64, headTree 0 slices_S1024x512_o0_0_S1024x64 Q K V⟩, ⟨S1024x64, headTree 64 slices_S1024x512_o0_64_S1024x64 Q K V⟩, ⟨S1024x64, headTree 128 slices_S1024x512_o0_128_S1024x64 Q K V⟩, ⟨S1024x64, headTree 192 slices_S1024x512_o0_192_S1024x64 Q K V⟩, ⟨S1024x64, headTree 256 slices_S1024x512_o0_256_S1024x64 Q K V⟩, ⟨S1024x64, headTree 320 slices_S1024x512_o0_320_S1024x64 Q K V⟩, ⟨S1024x64, headTree 384 slices_S1024x512_o0_384_S1024x64 Q K V⟩, ⟨S1024x64, headTree 448 slices_S1024x512_o0_448_S1024x64 Q K V⟩] concatenates_S1024x64_S1024x64_S1024x64_S1024x64_S1024x64_S1024x64_S1024x64_S1024x64_S1024x512_d1 (ix2 n (lane h e))
        = attn (mat Q) (mat K) (mat V) n h e := by
    intro k hk hs hx hpre hh
    refine (concatenate_apply_piece (t := S1024x512) (a := (1 : Fin 2)) [⟨S1024x64, headTree 0 slices_S1024x512_o0_0_S1024x64 Q K V⟩, ⟨S1024x64, headTree 64 slices_S1024x512_o0_64_S1024x64 Q K V⟩, ⟨S1024x64, headTree 128 slices_S1024x512_o0_128_S1024x64 Q K V⟩, ⟨S1024x64, headTree 192 slices_S1024x512_o0_192_S1024x64 Q K V⟩, ⟨S1024x64, headTree 256 slices_S1024x512_o0_256_S1024x64 Q K V⟩, ⟨S1024x64, headTree 320 slices_S1024x512_o0_320_S1024x64 Q K V⟩, ⟨S1024x64, headTree 384 slices_S1024x512_o0_384_S1024x64 Q K V⟩, ⟨S1024x64, headTree 448 slices_S1024x512_o0_448_S1024x64 Q K V⟩] concatenates_S1024x64_S1024x64_S1024x64_S1024x64_S1024x64_S1024x64_S1024x64_S1024x64_S1024x512_d1 (ix2 n (lane h e)) k hk S1024x64
      (headTree (64 * k) hs Q K V) hx rfl (64 * k) hpre (ix2 n e) ?_ ?_).trans ?_
    · intro b hb
      match b with
      | ⟨0, _⟩ => rfl
      | ⟨1, _⟩ => exact absurd rfl hb
    · show 64 * k + e.val = 64 * h.val + e.val
      rw [hh]
    · rw [headTree_apply]
      unfold attn
      refine Finset.sum_congr rfl fun m _ => ?_
      have hl : ∀ e' : Fin 64, (⟨64 * k + e'.val, Nat.lt_of_lt_of_le (Nat.add_lt_add_left e'.isLt (64 * k)) (hs.2 1)⟩ : Fin 512) = lane h e' :=
        fun e' => Fin.ext (by show 64 * k + e'.val = 64 * h.val + e'.val; rw [hh])
      simp only [hl]
  match h with
  | ⟨0, _⟩ => exact piece 0 (by decide) slices_S1024x512_o0_0_S1024x64 rfl rfl rfl
  | ⟨1, _⟩ => exact piece 1 (by decide) slices_S1024x512_o0_64_S1024x64 rfl rfl rfl
  | ⟨2, _⟩ => exact piece 2 (by decide) slices_S1024x512_o0_128_S1024x64 rfl rfl rfl
  | ⟨3, _⟩ => exact piece 3 (by decide) slices_S1024x512_o0_192_S1024x64 rfl rfl rfl
  | ⟨4, _⟩ => exact piece 4 (by decide) slices_S1024x512_o0_256_S1024x64 rfl rfl rfl
  | ⟨5, _⟩ => exact piece 5 (by decide) slices_S1024x512_o0_320_S1024x64 rfl rfl rfl
  | ⟨6, _⟩ => exact piece 6 (by decide) slices_S1024x512_o0_384_S1024x64 rfl rfl rfl
  | ⟨7, _⟩ => exact piece 7 (by decide) slices_S1024x512_o0_448_S1024x64 rfl rfl rfl

/-! ## The body -/

/-- The body's text: three layers of the block, the heads, a ReLU, the fourth layer, and the unit axis put back. -/
def bodyTree (x0 : Vec Ideal S1x1024x512 .f32) (x1 : Vec Ideal S512x512 .f32) (x2 x3 x4 x5 x6 : Vec Ideal S512 .f32)
    (x7 : Vec Ideal S512x512 .f32) (x8 x9 x10 x11 x12 : Vec Ideal S512 .f32)
    (x13 : Vec Ideal S512x512 .f32) (x14 x15 x16 x17 x18 : Vec Ideal S512 .f32)
    (x19 : Vec Ideal S512x512 .f32) (x20 x21 x22 x23 x24 : Vec Ideal S512 .f32) : FVec Ideal S1x1024x512 .f32 :=
  shapeCast S1x1024x512
    (layerTree
      (truncf .bf16
        (maximumf
          (headsTree
            (layerTree (truncf .bf16 (shapeCast S1024x512 x0 shapeCasts_S1x1024x512_S1024x512) bitsLt_bf16_f32) x1 x2 x3 x6 x5 x4)
            (layerTree (truncf .bf16 (shapeCast S1024x512 x0 shapeCasts_S1x1024x512_S1024x512) bitsLt_bf16_f32) x7 x8 x9 x12 x11 x10)
            (layerTree (truncf .bf16 (shapeCast S1024x512 x0 shapeCasts_S1x1024x512_S1024x512) bitsLt_bf16_f32) x13 x14 x15 x18 x17 x16))
          (broadcast S1024x512 (Scalar.ofBits .f32 0x00000000#32)))
        bitsLt_bf16_f32)
      x19 x20 x21 x24 x23 x22)
    shapeCasts_S1024x512_S1x1024x512

/-- The block as a `[1024, 512]` operand is the batch element's slab. -/
theorem mat_block (x0 : Vec Ideal S1x1024x512 .f32) :
    mat (truncf (F := Ideal) .bf16 (shapeCast S1024x512 x0 shapeCasts_S1x1024x512_S1024x512) bitsLt_bf16_f32) = slab x0 (0 : Fin 1) :=
  funext fun n => funext fun c => shapeCast_1ab_ab_apply x0 shapeCasts_S1x1024x512_S1024x512 n c

/-- The heads after the ReLU, as a `[1024, 512]` operand. -/
theorem mat_heads (Q K V : FVec Ideal S1024x512 .f32) :
    mat (truncf (F := Ideal) .bf16 (maximumf (headsTree Q K V) (broadcast S1024x512 (Scalar.ofBits .f32 0x00000000#32))) bitsLt_bf16_f32)
      = fun n c => max (attn (mat Q) (mat K) (mat V) n (headOf c) (laneOf c)) zero32 :=
  funext fun n => funext fun c => by
    show max (headsTree Q K V (ix2 n c)) zero32 = _
    rw [headsTree_apply]

theorem bodyTree_apply (x0 : Vec Ideal S1x1024x512 .f32) (x1 : Vec Ideal S512x512 .f32) (x2 x3 x4 x5 x6 : Vec Ideal S512 .f32)
    (x7 : Vec Ideal S512x512 .f32) (x8 x9 x10 x11 x12 : Vec Ideal S512 .f32)
    (x13 : Vec Ideal S512x512 .f32) (x14 x15 x16 x17 x18 : Vec Ideal S512 .f32)
    (x19 : Vec Ideal S512x512 .f32) (x20 x21 x22 x23 x24 : Vec Ideal S512 .f32) (n : Fin 1024) (d : Fin 512) :
    bodyTree x0 x1 x2 x3 x4 x5 x6 x7 x8 x9 x10 x11 x12 x13 x14 x15 x16 x17 x18 x19 x20 x21 x22 x23 x24 (ix3 (0 : Fin 1) n d)
      = block scaleMul (layerOf x1 x2 x3 x4 x5 x6) (layerOf x7 x8 x9 x10 x11 x12) (layerOf x13 x14 x15 x16 x17 x18)
          (layerOf x19 x20 x21 x22 x23 x24) (slab x0 0) n d := by
  unfold bodyTree
  rw [shapeCast_ab_1ab_apply, layerTree_apply, mat_heads, mat_layerTree, mat_layerTree, mat_layerTree, mat_block]
  rfl

/-- What the body leaves in the output's block, at `(0, n, d)`. -/
theorem out_entry (x0 : Vec Ideal S1x1024x512 .f32) (x1 : Vec Ideal S512x512 .f32) (x2 x3 x4 x5 x6 : Vec Ideal S512 .f32)
    (x7 : Vec Ideal S512x512 .f32) (x8 x9 x10 x11 x12 : Vec Ideal S512 .f32)
    (x13 : Vec Ideal S512x512 .f32) (x14 x15 x16 x17 x18 : Vec Ideal S512 .f32)
    (x19 : Vec Ideal S512x512 .f32) (x20 x21 x22 x23 x24 : Vec Ideal S512 .f32) (n : Fin 1024) (d : Fin 512) :
    out0_25 x0 x1 x2 x3 x4 x5 x6 x7 x8 x9 x10 x11 x12 x13 x14 x15 x16 x17 x18 x19 x20 x21 x22 x23 x24 (ix3 (0 : Fin 1) n d)
      = block scaleMul (layerOf x1 x2 x3 x4 x5 x6) (layerOf x7 x8 x9 x10 x11 x12) (layerOf x13 x14 x15 x16 x17 x18)
          (layerOf x19 x20 x21 x22 x23 x24) (slab x0 0) n d := by
  unfold out0_25
  rw [View.canon_unit_zero hz3]
  simp only [View.ld_unit_zero (S := S1x1024x512) hz3, View.ld_unit_zero (S := S512x512) hz2, View.ld_unit_zero (S := S512) hz1]
  show bodyTree x0 x1 x2 x3 x4 x5 x6 x7 x8 x9 x10 x11 x12 x13 x14 x15 x16 x17 x18 x19 x20 x21 x22 x23 x24 (ix3 (0 : Fin 1) n d) = _
  exact bodyTree_apply x0 x1 x2 x3 x4 x5 x6 x7 x8 x9 x10 x11 x12 x13 x14 x15 x16 x17 x18 x19 x20 x21 x22 x23 x24 n d

end Cert.KernelIdeal.Body

end
-- ==== Proof.KernelValue.lean ====
/-
  The kernel's result array.

  The grid has one point per batch element: point `t` holds batch element `t` of the input as its block, every
  parameter array whole (their index maps are constantly zero), and writes block `t` of the output. What it writes is
  the specification's block function of that batch element (the body's result at one entry), which is the result array
  read through block `t`; the eight blocks cover the output, so after the run the output array IS the result array,
  with the scale formed as a product.
-/
import proofs.«177937_j85633057947962_1_alg».proof.Proof.Gen.KernelIdeal.Value
import proofs.«177937_j85633057947962_1_alg».proof.Proof.KernelRead

set_option maxRecDepth 16384

noncomputable section

namespace Cert.KernelIdeal.Whole

open Cert.KernelIdeal Cert.KernelIdeal.Gen Idealize.ShloMosaic Idealize.ShloMosaic.TcCoe Idealize.SL.Sem Idealize.ShloMosaic.ValueIdx Cert.Spec
open Idealize.ShloMosaic.Pipeline (Dat)

variable [Facts]
variable (m : (ℓ : Loc nD τ sig) → Buf (Elt Ideal) ℓ) (ρ : Dev nD → PrngReg)

/-! ## The index maps, decided over the eight grid points -/

/-- The output's block index at a point is `(b, 0, 0)` with `b < 8`, and the input's is the same. -/
theorem idxOut : ∀ t : Fin cfg0.N, win0_25.index t (0 : Fin 3) < 8 ∧ win0_25.index t (1 : Fin 3) = 0 ∧ win0_25.index t (2 : Fin 3) = 0 :=
  (by decide +kernel : ∀ t : Fin grid0.N, _)
theorem idxIn : ∀ t : Fin cfg0.N, win0_0.index t (0 : Fin 3) = win0_25.index t (0 : Fin 3) ∧ win0_0.index t (1 : Fin 3) = 0 ∧ win0_0.index t (2 : Fin 3) = 0 :=
  (by decide +kernel : ∀ t : Fin grid0.N, _)
/-- Every batch element is some point's. -/
theorem idxOnto : ∀ q : Fin 8, ∃ t : Fin cfg0.N, win0_25.index t (0 : Fin 3) = q.val :=
  (by decide +kernel : ∀ q : Fin 8, ∃ t : Fin grid0.N, win0_25.index t (0 : Fin 3) = q.val)
/-- The parameter windows' index maps are constantly zero. -/
theorem idx1 : ∀ t : Fin cfg0.N, win0_1.index t (0 : Fin 2) = 0 ∧ win0_1.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx19 : ∀ t : Fin cfg0.N, win0_19.index t (0 : Fin 2) = 0 ∧ win0_19.index t (1 : Fin 2) = 0 :=
  (by decide +kernel : ∀ t : Fin grid0.N, _)
theorem idx2 : ∀ t : Fin cfg0.N, win0_2.index t (0 : Fin 1) = 0 := (by decide +kernel : ∀ t : Fin grid0.N, _)
theorem idx3 : ∀ t : Fin cfg0.N, win0_3.index t (0 : Fin 1) = 0 := (by decide +kernel : ∀ t : Fin grid0.N, _)
theorem idx4 : ∀ t : Fin cfg0.N, win0_4.index t (0 : Fin 1) = 0 := (by decide +kernel : ∀ t : Fin grid0.N, _)
theorem idx5 : ∀ t : Fin cfg0.N, win0_5.index t (0 : Fin 1) = 0 := (by decide +kernel : ∀ t : Fin grid0.N, _)
theorem idx6 : ∀ t : Fin cfg0.N, win0_6.index t (0 : Fin 1) = 0 := (by decide +kernel : ∀ t : Fin grid0.N, _)
theorem idx8 : ∀ t : Fin cfg0.N, win0_8.index t (0 : Fin 1) = 0 := (by decide +kernel : ∀ t : Fin grid0.N, _)
theorem idx9 : ∀ t : Fin cfg0.N, win0_9.index t (0 : Fin 1) = 0 := (by decide +kernel : ∀ t : Fin grid0.N, _)
theorem idx10 : ∀ t : Fin cfg0.N, win0_10.index t (0 : Fin 1) = 0 := (by decide +kernel : ∀ t : Fin grid0.N, _)
theorem idx11 : ∀ t : Fin cfg0.N, win0_11.index t (0 : Fin 1) = 0 := (by decide +kernel : ∀ t : Fin grid0.N, _)
theorem idx12 : ∀ t : Fin cfg0.N, win0_12.index t (0 : Fin 1) = 0 := (by decide +kernel : ∀ t : Fin grid0.N, _)
theorem idx14 : ∀ t : Fin cfg0.N, win0_14.index t (0 : Fin 1) = 0 := (by decide +kernel : ∀ t : Fin grid0.N, _)
theorem idx15 : ∀ t : Fin cfg0.N, win0_15.index t (0 : Fin 1) = 0 := (by decide +kernel : ∀ t : Fin grid0.N, _)
theorem idx16 : ∀ t : Fin cfg0.N, win0_16.index t (0 : Fin 1) = 0 := (by decide +kernel : ∀ t : Fin grid0.N, _)
theorem idx17 : ∀ t : Fin cfg0.N, win0_17.index t (0 : Fin 1) = 0 := (by decide +kernel : ∀ t : Fin grid0.N, _)
theorem idx18 : ∀ t : Fin cfg0.N, win0_18.index t (0 : Fin 1) = 0 := (by decide +kernel : ∀ t : Fin grid0.N, _)
theorem idx20 : ∀ t : Fin cfg0.N, win0_20.index t (0 : Fin 1) = 0 := (by decide +kernel : ∀ t : Fin grid0.N, _)
theorem idx21 : ∀ t : Fin cfg0.N, win0_21.index t (0 : Fin 1) = 0 := (by decide +kernel : ∀ t : Fin grid0.N, _)
theorem idx22 : ∀ t : Fin cfg0.N, win0_22.index t (0 : Fin 1) = 0 := (by decide +kernel : ∀ t : Fin grid0.N, _)
theorem idx23 : ∀ t : Fin cfg0.N, win0_23.index t (0 : Fin 1) = 0 := (by decide +kernel : ∀ t : Fin grid0.N, _)
theorem idx24 : ∀ t : Fin cfg0.N, win0_24.index t (0 : Fin 1) = 0 := (by decide +kernel : ∀ t : Fin grid0.N, _)

/-! ## The blocks the body reads -/

/-- The batch element point `t` works on. -/
def bat (t : Fin cfg0.N) : Fin 8 := ⟨win0_25.index t (0 : Fin 3), (idxOut t).1⟩

/-- Entry `(0, n, d)` of the output's block at `t` is entry `(bat t, n, d)` of the output array. -/
theorem out_emb (t : Fin cfg0.N) (n : Fin 1024) (d : Fin 512) :
    ((cfg0.win 25).blk t).view.emb (ix3 (0 : Fin 1) n d) = ix3 (bat t) n d := by
  obtain ⟨-, e1, e2⟩ := idxOut t
  funext a
  apply Fin.ext
  match a with
  | ⟨0, _⟩ => show win0_25.index t (0 : Fin 3) * 1 + 1 * 0 = win0_25.index t (0 : Fin 3); omega
  | ⟨1, _⟩ => show win0_25.index t (1 : Fin 3) * 1024 + 1 * n.val = n.val; omega
  | ⟨2, _⟩ => show win0_25.index t (2 : Fin 3) * 512 + 1 * d.val = d.val; omega

/-- The same of the input's block. -/
theorem in_emb (t : Fin cfg0.N) (n : Fin 1024) (k : Fin 512) :
    ((cfg0.win 0).blk t).view.emb (ix3 (0 : Fin 1) n k) = ix3 (bat t) n k := by
  obtain ⟨e0, e1, e2⟩ := idxIn t
  funext a
  apply Fin.ext
  match a with
  | ⟨0, _⟩ => show win0_0.index t (0 : Fin 3) * 1 + 1 * 0 = win0_25.index t (0 : Fin 3); omega
  | ⟨1, _⟩ => show win0_0.index t (1 : Fin 3) * 1024 + 1 * n.val = n.val; omega
  | ⟨2, _⟩ => show win0_0.index t (2 : Fin 3) * 512 + 1 * k.val = k.val; omega

/-- The input's block at `t`, as a `[1, 1024, 512]` vector. -/
abbrev xblk (c : Dev nD) (t : Fin cfg0.N) : Vec Ideal S1x1024x512 .f32 := iblk m c 0 t

/-- It is batch element `bat t` of the input array. -/
theorem xblk_slab (c : Dev nD) (t : Fin cfg0.N) : slab (xblk m c t) (0 : Fin 1) = slab (V m c main_arg0) (bat t) := by
  funext n k
  show V m c main_arg0 (((cfg0.win 0).blk t).view.emb (ix3 (0 : Fin 1) n k)) = V m c main_arg0 (ix3 (bat t) n k)
  rw [in_emb]

/-- Each parameter window's block is its whole array. -/
theorem blk1_eq (c : Dev nD) (t : Fin cfg0.N) : (iblk m c 1 t : Vec Ideal S512x512 .f32) = V m c main_arg1 := by
  obtain ⟨e0, e1⟩ := idx1 t
  funext y
  show V m c main_arg1 (((cfg0.win 1).blk t).view.emb y) = V m c main_arg1 y
  refine congrArg _ (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega
theorem blk7_eq (c : Dev nD) (t : Fin cfg0.N) : (iblk m c 7 t : Vec Ideal S512x512 .f32) = V m c main_arg7 := by
  obtain ⟨e0, e1⟩ := idx7 t
  funext y
  show V m c main_arg7 (((cfg0.win 7).blk t).view.emb y) = V m c main_arg7 y
  refine congrArg _ (funext fun a => Fin.ext ?_)
  match a with
  | ⟨0, _⟩ => show win0_7.index t (0 : Fin 2) * 512 + 1 * (y 0).val = (y 0).val; omega
  | ⟨1, _⟩ => show win0_7.index t (1 : Fin 2) * 512 + 1 * (y 1).val = (y 1).val; omega
theorem blk13_eq (c : Dev nD) (t : Fin cfg0.N) : (iblk m c 13 t : Vec Ideal S512x512 .f32) = V m c main_arg13 := by
  obtain ⟨e0, e1⟩ := idx13 t
  funext y
  show V m c main_arg13 (((cfg0.win 13).blk t).view.emb y) = V m c main_arg13 y
  refine congrArg _ (funext fun a => Fin.ext ?_)
  match a with
  | ⟨0, _⟩ => show win0_13.index t (0 : Fin 2) * 512 + 1 * (y 0).val = (y 0).val; omega
  | ⟨1, _⟩ => show win0_13.index t (1 : Fin 2) * 512 + 1 * (y 1).val = (y 1).val; omega
theorem blk19_eq (c : Dev nD) (t : Fin cfg0.N) : (iblk m c 19 t : Vec Ideal S512x512 .f32) = V m c main_arg19 := by
  obtain ⟨e0, e1⟩ := idx19 t
  funext y
  show V m c main_arg19 (((cfg0.win 19).blk t).view.emb y) = V m c main_arg19 y
  refine congrArg _ (funext fun a => Fin.ext ?_)
  match a with
  | ⟨0, _⟩ => show win0_19.index t (0 : Fin 2) * 512 + 1 * (y 0).val = (y 0).val; omega
  | ⟨1, _⟩ => show win0_19.index t (1 : Fin 2) * 512 + 1 * (y 1).val = (y 1).val; omega
theorem blk2_eq (c : Dev nD) (t : Fin cfg0.N) : (iblk m c 2 t : Vec Ideal S512 .f32) = V m c main_arg2 := by
  have e0 := idx2 t
  funext y
  show V m c main_arg2 (((cfg0.win 2).blk t).view.emb y) = V m c main_arg2 y
  refine congrArg _ (funext fun a => Fin.ext ?_)
  match a with
  | ⟨0, _⟩ => show win0_2.index t (0 : Fin 1) * 512 + 1 * (y 0).val = (y 0).val; omega
theorem blk3_eq (c : Dev nD) (t : Fin cfg0.N) : (iblk m c 3 t : Vec Ideal S512 .f32) = V m c main_arg3 := by
  have e0 := idx3 t
  funext y
  show V m c main_arg3 (((cfg0.win 3).blk t).view.emb y) = V m c main_arg3 y
  refine congrArg _ (funext fun a => Fin.ext ?_)
  match a with
  | ⟨0, _⟩ => show win0_3.index t (0 : Fin 1) * 512 + 1 * (y 0).val = (y 0).val; omega
theorem blk4_eq (c : Dev nD) (t : Fin cfg0.N) : (iblk m c 4 t : Vec Ideal S512 .f32) = V m c main_arg4 := by
  have e0 := idx4 t
  funext y
  show V m c main_arg4 (((cfg0.win 4).blk t).view.emb y) = V m c main_arg4 y
  refine congrArg _ (funext fun a => Fin.ext ?_)
  match a with
  | ⟨0, _⟩ => show win0_4.index t (0 : Fin 1) * 512 + 1 * (y 0).val = (y 0).val; omega
theorem blk5_eq (c : Dev nD) (t : Fin cfg0.N) : (iblk m c 5 t : Vec Ideal S512 .f32) = V m c main_arg5 := by
  have e0 := idx5 t
  funext y
  show V m c main_arg5 (((cfg0.win 5).blk t).view.emb y) = V m c main_arg5 y
  refine congrArg _ (funext fun a => Fin.ext ?_)
  match a with
  | ⟨0, _⟩ => show win0_5.index t (0 : Fin 1) * 512 + 1 * (y 0).val = (y 0).val; omega
theorem blk6_eq (c : Dev nD) (t : Fin cfg0.N) : (iblk m c 6 t : Vec Ideal S512 .f32) = V m c main_arg6 := by
  have e0 := idx6 t
  funext y
  show V m c main_arg6 (((cfg0.win 6).blk t).view.emb y) = V m c main_arg6 y
  refine congrArg _ (funext fun a => Fin.ext ?_)
  match a with
  | ⟨0, _⟩ => show win0_6.index t (0 : Fin 1) * 512 + 1 * (y 0).val = (y 0).val; omega
theorem blk8_eq (c : Dev nD) (t : Fin cfg0.N) : (iblk m c 8 t : Vec Ideal S512 .f32) = V m c main_arg8 := by
  have e0 := idx8 t
  funext y
  show V m c main_arg8 (((cfg0.win 8).blk t).view.emb y) = V m c main_arg8 y
  refine congrArg _ (funext fun a => Fin.ext ?_)
  match a with
  | ⟨0, _⟩ => show win0_8.index t (0 : Fin 1) * 512 + 1 * (y 0).val = (y 0).val; omega
theorem blk9_eq (c : Dev nD) (t : Fin cfg0.N) : (iblk m c 9 t : Vec Ideal S512 .f32) = V m c main_arg9 := by
  have e0 := idx9 t
  funext y
  show V m c main_arg9 (((cfg0.win 9).blk t).view.emb y) = V m c main_arg9 y
  refine congrArg _ (funext fun a => Fin.ext ?_)
  match a with
  | ⟨0, _⟩ => show win0_9.index t (0 : Fin 1) * 512 + 1 * (y 0).val = (y 0).val; omega
theorem blk10_eq (c : Dev nD) (t : Fin cfg0.N) : (iblk m c 10 t : Vec Ideal S512 .f32) = V m c main_arg10 := by
  have e0 := idx10 t
  funext y
  show V m c main_arg10 (((cfg0.win 10).blk t).view.emb y) = V m c main_arg10 y
  refine congrArg _ (funext fun a => Fin.ext ?_)
  match a with
  | ⟨0, _⟩ => show win0_10.index t (0 : Fin 1) * 512 + 1 * (y 0).val = (y 0).val; omega
theorem blk11_eq (c : Dev nD) (t : Fin cfg0.N) : (iblk m c 11 t : Vec Ideal S512 .f32) = V m c main_arg11 := by
  have e0 := idx11 t
  funext y
  show V m c main_arg11 (((cfg0.win 11).blk t).view.emb y) = V m c main_arg11 y
  refine congrArg _ (funext fun a => Fin.ext ?_)
  match a with
  | ⟨0, _⟩ => show win0_11.index t (0 : Fin 1) * 512 + 1 * (y 0).val = (y 0).val; omega
theorem blk12_eq (c : Dev nD) (t : Fin cfg0.N) : (iblk m c 12 t : Vec Ideal S512 .f32) = V m c main_arg12 := by
  have e0 := idx12 t
  funext y
  show V m c main_arg12 (((cfg0.win 12).blk t).view.emb y) = V m c main_arg12 y
  refine congrArg _ (funext fun a => Fin.ext ?_)
  match a with
  | ⟨0, _⟩ => show win0_12.index t (0 : Fin 1) * 512 + 1 * (y 0).val = (y 0).val; omega
theorem blk14_eq (c : Dev nD) (t : Fin cfg0.N) : (iblk m c 14 t : Vec Ideal S512 .f32) = V m c main_arg14 := by
  have e0 := idx14 t
  funext y
  show V m c main_arg14 (((cfg0.win 14).blk t).view.emb y) = V m c main_arg14 y
  refine congrArg _ (funext fun a => Fin.ext ?_)
  match a with
  | ⟨0, _⟩ => show win0_14.index t (0 : Fin 1) * 512 + 1 * (y 0).val = (y 0).val; omega
theorem blk15_eq (c : Dev nD) (t : Fin cfg0.N) : (iblk m c 15 t : Vec Ideal S512 .f32) = V m c main_arg15 := by
  have e0 := idx15 t
  funext y
  show V m c main_arg15 (((cfg0.win 15).blk t).view.emb y) = V m c main_arg15 y
  refine congrArg _ (funext fun a => Fin.ext ?_)
  match a with
  | ⟨0, _⟩ => show win0_15.index t (0 : Fin 1) * 512 + 1 * (y 0).val = (y 0).val; omega
theorem blk16_eq (c : Dev nD) (t : Fin cfg0.N) : (iblk m c 16 t : Vec Ideal S512 .f32) = V m c main_arg16 := by
  have e0 := idx16 t
  funext y
  show V m c main_arg16 (((cfg0.win 16).blk t).view.emb y) = V m c main_arg16 y
  refine congrArg _ (funext fun a => Fin.ext ?_)
  match a with
  | ⟨0, _⟩ => show win0_16.index t (0 : Fin 1) * 512 + 1 * (y 0).val = (y 0).val; omega
theorem blk17_eq (c : Dev nD) (t : Fin cfg0.N) : (iblk m c 17 t : Vec Ideal S512 .f32) = V m c main_arg17 := by
  have e0 := idx17 t
  funext y
  show V m c main_arg17 (((cfg0.win 17).blk t).view.emb y) = V m c main_arg17 y
  refine congrArg _ (funext fun a => Fin.ext ?_)
  match a with
  | ⟨0, _⟩ => show win0_17.index t (0 : Fin 1) * 512 + 1 * (y 0).val = (y 0).val; omega
theorem blk18_eq (c : Dev nD) (t : Fin cfg0.N) : (iblk m c 18 t : Vec Ideal S512 .f32) = V m c main_arg18 := by
  have e0 := idx18 t
  funext y
  show V m c main_arg18 (((cfg0.win 18).blk t).view.emb y) = V m c main_arg18 y
  refine congrArg _ (funext fun a => Fin.ext ?_)
  match a with
  | ⟨0, _⟩ => show win0_18.index t (0 : Fin 1) * 512 + 1 * (y 0).val = (y 0).val; omega
theorem blk20_eq (c : Dev nD) (t : Fin cfg0.N) : (iblk m c 20 t : Vec Ideal S512 .f32) = V m c main_arg20 := by
  have e0 := idx20 t
  funext y
  show V m c main_arg20 (((cfg0.win 20).blk t).view.emb y) = V m c main_arg20 y
  refine congrArg _ (funext fun a => Fin.ext ?_)
  match a with
  | ⟨0, _⟩ => show win0_20.index t (0 : Fin 1) * 512 + 1 * (y 0).val = (y 0).val; omega
theorem blk21_eq (c : Dev nD) (t : Fin cfg0.N) : (iblk m c 21 t : Vec Ideal S512 .f32) = V m c main_arg21 := by
  have e0 := idx21 t
  funext y
  show V m c main_arg21 (((cfg0.win 21).blk t).view.emb y) = V m c main_arg21 y
  refine congrArg _ (funext fun a => Fin.ext ?_)
  match a with
  | ⟨0, _⟩ => show win0_21.index t (0 : Fin 1) * 512 + 1 * (y 0).val = (y 0).val; omega
theorem blk22_eq (c : Dev nD) (t : Fin cfg0.N) : (iblk m c 22 t : Vec Ideal S512 .f32) = V m c main_arg22 := by
  have e0 := idx22 t
  funext y
  show V m c main_arg22 (((cfg0.win 22).blk t).view.emb y) = V m c main_arg22 y
  refine congrArg _ (funext fun a => Fin.ext ?_)
  match a with
  | ⟨0, _⟩ => show win0_22.index t (0 : Fin 1) * 512 + 1 * (y 0).val = (y 0).val; omega
theorem blk23_eq (c : Dev nD) (t : Fin cfg0.N) : (iblk m c 23 t : Vec Ideal S512 .f32) = V m c main_arg23 := by
  have e0 := idx23 t
  funext y
  show V m c main_arg23 (((cfg0.win 23).blk t).view.emb y) = V m c main_arg23 y
  refine congrArg _ (funext fun a => Fin.ext ?_)
  match a with
  | ⟨0, _⟩ => show win0_23.index t (0 : Fin 1) * 512 + 1 * (y 0).val = (y 0).val; omega
theorem blk24_eq (c : Dev nD) (t : Fin cfg0.N) : (iblk m c 24 t : Vec Ideal S512 .f32) = V m c main_arg24 := by
  have e0 := idx24 t
  funext y
  show V m c main_arg24 (((cfg0.win 24).blk t).view.emb y) = V m c main_arg24 y
  refine congrArg _ (funext fun a => Fin.ext ?_)
  match a with
  | ⟨0, _⟩ => show win0_24.index t (0 : Fin 1) * 512 + 1 * (y 0).val = (y 0).val; omega

/-! ## The output array -/

/-- The result array of the launch's argument arrays. -/
abbrev G (c : Dev nD) : S8x1024x512.Idx → EReal :=
  result scaleMul (m ((c : Thread nD τ).loc main_arg0)) (layerOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (layerOf (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))) (layerOf (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (layerOf (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)))

/-- What point `t` writes back is block `t` of the result array. -/
theorem flushed_eq (c : Dev nD) (t : Fin cfg0.N) :
    (dats m 0 c).flushed 25 t = ((cfg0.win 25).blk t).view.read (Elt Ideal) (G m c) := by
  rw [Value.flushed25]
  funext y
  obtain ⟨u, n, d, rfl⟩ : ∃ (u : Fin 1) (n : Fin 1024) (d : Fin 512), y = ix3 u n d := ⟨y 0, y 1, y 2, eq_ix3 y⟩
  obtain rfl : u = 0 := Subsingleton.elim _ _
  show out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (ix3 (0 : Fin 1) n d)
    = G m c (((cfg0.win 25).blk t).view.emb (ix3 (0 : Fin 1) n d))
  rw [out_emb]
  refine (Body.out_entry (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) n d).trans ?_
  rw [blk1_eq m c t, blk2_eq m c t, blk3_eq m c t, blk4_eq m c t, blk5_eq m c t, blk6_eq m c t, blk7_eq m c t, blk8_eq m c t, blk9_eq m c t, blk10_eq m c t, blk11_eq m c t, blk12_eq m c t, blk13_eq m c t, blk14_eq m c t, blk15_eq m c t, blk16_eq m c t, blk17_eq m c t, blk18_eq m c t, blk19_eq m c t, blk20_eq m c t, blk21_eq m c t, blk22_eq m c t, blk23_eq m c t, blk24_eq m c t]
  show block scaleMul _ _ _ _ (slab (xblk m c t) (0 : Fin 1)) n d = _
  rw [xblk_slab]
  rfl

/-- An index of the output array is in point `t`'s block iff each coordinate is in the block's range on its axis. -/
theorem mem_blk (t : Fin cfg0.N) (i : S8x1024x512.Idx) :
    i ∈ ((cfg0.win 25).blk t).view.set ↔ ∀ a : Fin 3, win0_25.index t a * S1x1024x512.size a ≤ (i a).val ∧ (i a).val < win0_25.index t a * S1x1024x512.size a + S1x1024x512.size a := by
  show i ∈ ((View.whole main_v0).slice (win0_25.rect t)).set ↔ _
  rw [View.set_slice_whole, Rect.mem_set_unit]
  exact Iff.rfl

/-- The eight blocks cover the output array. -/
theorem cover (i : S8x1024x512.Idx) : ∃ t : Fin cfg0.N, (cfg0.win 25).flush t = true ∧ i ∈ ((cfg0.win 25).blk t).view.set := by
  obtain ⟨t, ht⟩ := idxOnto (i 0)
  obtain ⟨-, e1, e2⟩ := idxOut t
  have h1 : (i 1).val < 1024 := (i 1).isLt
  have h2 : (i 2).val < 512 := (i 2).isLt
  refine ⟨t, flush0_25 t, ?_⟩
  rw [mem_blk]
  intro a
  match a with
  | ⟨0, _⟩ => show win0_25.index t (0 : Fin 3) * 1 ≤ (i 0).val ∧ (i 0).val < win0_25.index t (0 : Fin 3) * 1 + 1; omega
  | ⟨1, _⟩ => show win0_25.index t (1 : Fin 3) * 1024 ≤ (i 1).val ∧ (i 1).val < win0_25.index t (1 : Fin 3) * 1024 + 1024; omega
  | ⟨2, _⟩ => show win0_25.index t (2 : Fin 3) * 512 ≤ (i 2).val ∧ (i 2).val < win0_25.index t (2 : Fin 3) * 512 + 512; omega

/-- After the run the output array is the result array. -/
theorem final (c : Dev nD) : (dats m 0 c).arrAt 25 cfg0.N = G m c :=
  (dats m 0 c).arrAt_eq_of_cover 25 (G m c) (fun t _ => flushed_eq m c t) (cover)

/-- The kernel's run: it ends, with the output array the result array and the arguments unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24) :=
  (θ_run defs _ _).mono (fun r h c => ⟨(h c).1.trans (final m c), (h c).2⟩) (Value.run_blocks m ρ)

end Cert.KernelIdeal.Whole

end
-- ==== Proof.RefRead.lean ====
/-
  The reference's result at one entry.

  The reference works on the whole `[8, 1024, 512]` array at once. Each of its first three layers is a contraction of
  the input's last axis with a weight's last axis, a bias, the batch norm with the scale formed as the QUOTIENT
  `g / sqrt(var + ε)`, and a ReLU; a reshape to `[8, 1024, 8, 64]` and a transpose to `[8, 8, 1024, 64]` name entry
  `(b, n, 64 h + e)` as `(b, h, n, e)`; two batched contractions give the scores (times `1/8`) and the heads' outputs;
  the transpose and reshape back, a ReLU, and a fourth layer finish. Read at an index, one operation at a time, the
  result array is the specification's block with the scale as a quotient.
-/
import proofs.«177937_j85633057947962_1_alg».proof.Proof.Gen.ReferenceIdeal.Read
import proofs.«177937_j85633057947962_1_alg».proof.Proof.Arrays

set_option maxRecDepth 16384

noncomputable section

namespace Cert.ReferenceIdeal.AtIndex

open Cert.ReferenceIdeal Cert.ReferenceIdeal.Gen Cert.ReferenceIdeal.Read Idealize.ShloMosaic Idealize.ShloMosaic.ValueIdx Cert.Spec
open scoped BigOperators

variable [Facts]

/-- The query layer at `(b, n, d)`. -/
theorem q_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b : Fin 8) (n : Fin 1024) (d : Fin 512) :
    val_main_v17 (F := Ideal) x0 x1 x2 x3 x4 x5 x6 (ix3 b n d) = layer scaleDiv (layerOf x1 x2 x3 x4 x5 x6) (slab x0 b) n d := by
  have eL : ∀ k, lidx_main_v0 (ix3 b n d) k = ix3 b n k := fun k => funext fun a => by match a with | ⟨0, _⟩ => rfl | ⟨1, _⟩ => rfl | ⟨2, _⟩ => rfl
  have eR : ∀ k, ridx_main_v0 (ix3 b n d) k = ix2 d k := fun k => funext fun a => by match a with | ⟨0, _⟩ => rfl | ⟨1, _⟩ => rfl
  have e1 : idx_main_v1 (idx_main_v2 (ix3 b n d)) = ix1 d := funext fun a => by match a with | ⟨0, _⟩ => rfl
  have e4 : idx_main_v4 (idx_main_v5 (ix3 b n d)) = ix1 d := funext fun a => by match a with | ⟨0, _⟩ => rfl
  have e11 : idx_main_v11 (idx_main_v12 (ix3 b n d)) = ix1 d := funext fun a => by match a with | ⟨0, _⟩ => rfl
  have e14 : idx_main_v14 (idx_main_v15 (ix3 b n d)) = ix1 d := funext fun a => by match a with | ⟨0, _⟩ => rfl
  rw [val_main_v17_apply, val_main_v16_apply, val_main_v13_apply, val_main_v6_apply, val_main_v3_apply, val_main_v0_apply, val_main_v2_apply, val_main_v1_apply,
    val_main_v5_apply, val_main_v4_apply, val_main_v12_apply, val_main_v11_apply, val_main_v10_apply, val_main_v9_apply, val_main_v8_apply, val_main_v7_apply,
    val_main_cst_apply, val_main_v15_apply, val_main_v14_apply, val_main_call0_v0_apply, val_main_call0_cst_apply, e1, e4, e11, e14]
  simp only [eL, eR]
  rfl

/-- The key layer at `(b, n, d)`. -/
theorem k_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b : Fin 8) (n : Fin 1024) (d : Fin 512) :
    val_main_v37 (F := Ideal) x0 x7 x8 x9 x10 x11 x12 (ix3 b n d) = layer scaleDiv (layerOf x7 x8 x9 x10 x11 x12) (slab x0 b) n d := by
  have eL : ∀ k, lidx_main_v20 (ix3 b n d) k = ix3 b n k := fun k => funext fun a => by match a with | ⟨0, _⟩ => rfl | ⟨1, _⟩ => rfl | ⟨2, _⟩ => rfl
  have eR : ∀ k, ridx_main_v20 (ix3 b n d) k = ix2 d k := fun k => funext fun a => by match a with | ⟨0, _⟩ => rfl | ⟨1, _⟩ => rfl
  have e1 : idx_main_v21 (idx_main_v22 (ix3 b n d)) = ix1 d := funext fun a => by match a with | ⟨0, _⟩ => rfl
  have e4 : idx_main_v24 (idx_main_v25 (ix3 b n d)) = ix1 d := funext fun a => by match a with | ⟨0, _⟩ => rfl
  have e11 : idx_main_v31 (idx_main_v32 (ix3 b n d)) = ix1 d := funext fun a => by match a with | ⟨0, _⟩ => rfl
  have e14 : idx_main_v34 (idx_main_v35 (ix3 b n d)) = ix1 d := funext fun a => by match a with | ⟨0, _⟩ => rfl
  rw [val_main_v37_apply, val_main_v36_apply, val_main_v33_apply, val_main_v26_apply, val_main_v23_apply, val_main_v20_apply, val_main_v22_apply, val_main_v21_apply,
    val_main_v25_apply, val_main_v24_apply, val_main_v32_apply, val_main_v31_apply, val_main_v30_apply, val_main_v29_apply, val_main_v28_apply, val_main_v27_apply,
    val_main_cst_0_apply, val_main_v35_apply, val_main_v34_apply, val_main_call1_v0_apply, val_main_call1_cst_apply, e1, e4, e11, e14]
  simp only [eL, eR]
  rfl

/-- The value layer at `(b, n, d)`. -/
theorem v_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b : Fin 8) (n : Fin 1024) (d : Fin 512) :
    val_main_v57 (F := Ideal) x0 x13 x14 x15 x16 x17 x18 (ix3 b n d) = layer scaleDiv (layerOf x13 x14 x15 x16 x17 x18) (slab x0 b) n d := by
  have eL : ∀ k, lidx_main_v40 (ix3 b n d) k = ix3 b n k := fun k => funext fun a => by match a with | ⟨0, _⟩ => rfl | ⟨1, _⟩ => rfl | ⟨2, _⟩ => rfl
  have eR : ∀ k, ridx_main_v40 (ix3 b n d) k = ix2 d k := fun k => funext fun a => by match a with | ⟨0, _⟩ => rfl | ⟨1, _⟩ => rfl
  have e1 : idx_main_v41 (idx_main_v42 (ix3 b n d)) = ix1 d := funext fun a => by match a with | ⟨0, _⟩ => rfl
  have e4 : idx_main_v44 (idx_main_v45 (ix3 b n d)) = ix1 d := funext fun a => by match a with | ⟨0, _⟩ => rfl
  have e11 : idx_main_v51 (idx_main_v52 (ix3 b n d)) = ix1 d := funext fun a => by match a with | ⟨0, _⟩ => rfl
  have e14 : idx_main_v54 (idx_main_v55 (ix3 b n d)) = ix1 d := funext fun a => by match a with | ⟨0, _⟩ => rfl
  rw [val_main_v57_apply, val_main_v56_apply, val_main_v53_apply, val_main_v46_apply, val_main_v43_apply, val_main_v40_apply, val_main_v42_apply, val_main_v41_apply,
    val_main_v45_apply, val_main_v44_apply, val_main_v52_apply, val_main_v51_apply, val_main_v50_apply, val_main_v49_apply, val_main_v48_apply, val_main_v47_apply,
    val_main_cst_1_apply, val_main_v55_apply, val_main_v54_apply, val_main_call2_v0_apply, val_main_call2_cst_apply, e1, e4, e11, e14]
  simp only [eL, eR]
  rfl

/-- The queries by head: entry `(b, h, n, e)` is the query layer at channel `64 h + e`. -/
theorem qh_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b h : Fin 8) (n : Fin 1024) (e : Fin 64) :
    val_main_v19 (F := Ideal) x0 x1 x2 x3 x4 x5 x6 (ix4 b h n e) = layer scaleDiv (layerOf x1 x2 x3 x4 x5 x6) (slab x0 b) n (lane h e) := by
  have ei : idx_main_v18 (idx_main_v19 (ix4 b h n e)) = ix3 b n (lane h e) := by
    have hb := b.isLt; have hh := h.isLt; have hn := n.isLt; have he := e.isLt
    funext a
    apply Fin.ext
    match a with
    | ⟨0, _⟩ => show (((b.val * 1024 + n.val) * 8 + h.val) * 64 + e.val) / 524288 = b.val; omega
    | ⟨1, _⟩ => show (((b.val * 1024 + n.val) * 8 + h.val) * 64 + e.val) / 512 % 1024 = n.val; omega
    | ⟨2, _⟩ => show (((b.val * 1024 + n.val) * 8 + h.val) * 64 + e.val) % 512 = 64 * h.val + e.val; omega
  rw [val_main_v19_apply, val_main_v18_apply, ei]
  exact q_entry x0 x1 x2 x3 x4 x5 x6 x7 x8 x9 x10 x11 x12 x13 x14 x15 x16 x17 x18 b n (lane h e)

/-- The keys by head. -/
theorem kh_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b h : Fin 8) (n : Fin 1024) (e : Fin 64) :
    val_main_v39 (F := Ideal) x0 x7 x8 x9 x10 x11 x12 (ix4 b h n e) = layer scaleDiv (layerOf x7 x8 x9 x10 x11 x12) (slab x0 b) n (lane h e) := by
  have ei : idx_main_v38 (idx_main_v39 (ix4 b h n e)) = ix3 b n (lane h e) := by
    have hb := b.isLt; have hh := h.isLt; have hn := n.isLt; have he := e.isLt
    funext a
    apply Fin.ext
    match a with
    | ⟨0, _⟩ => show (((b.val * 1024 + n.val) * 8 + h.val) * 64 + e.val) / 524288 = b.val; omega
    | ⟨1, _⟩ => show (((b.val * 1024 + n.val) * 8 + h.val) * 64 + e.val) / 512 % 1024 = n.val; omega
    | ⟨2, _⟩ => show (((b.val * 1024 + n.val) * 8 + h.val) * 64 + e.val) % 512 = 64 * h.val + e.val; omega
  rw [val_main_v39_apply, val_main_v38_apply, ei]
  exact k_entry x0 x1 x2 x3 x4 x5 x6 x7 x8 x9 x10 x11 x12 x13 x14 x15 x16 x17 x18 b n (lane h e)

/-- The values by head. -/
theorem vh_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b h : Fin 8) (n : Fin 1024) (e : Fin 64) :
    val_main_v59 (F := Ideal) x0 x13 x14 x15 x16 x17 x18 (ix4 b h n e) = layer scaleDiv (layerOf x13 x14 x15 x16 x17 x18) (slab x0 b) n (lane h e) := by
  have ei : idx_main_v58 (idx_main_v59 (ix4 b h n e)) = ix3 b n (lane h e) := by
    have hb := b.isLt; have hh := h.isLt; have hn := n.isLt; have he := e.isLt
    funext a
    apply Fin.ext
    match a with
    | ⟨0, _⟩ => show (((b.val * 1024 + n.val) * 8 + h.val) * 64 + e.val) / 524288 = b.val; omega
    | ⟨1, _⟩ => show (((b.val * 1024 + n.val) * 8 + h.val) * 64 + e.val) / 512 % 1024 = n.val; omega
    | ⟨2, _⟩ => show (((b.val * 1024 + n.val) * 8 + h.val) * 64 + e.val) % 512 = 64 * h.val + e.val; omega
  rw [val_main_v59_apply, val_main_v58_apply, ei]
  exact v_entry x0 x1 x2 x3 x4 x5 x6 x7 x8 x9 x10 x11 x12 x13 x14 x15 x16 x17 x18 b n (lane h e)

/-- A head's output at `(b, h, n, e)`: the sum over rows `m` of the scaled score of `(n, m)` times the value at `(m, e)`. -/
theorem attn_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b h : Fin 8) (n : Fin 1024) (e : Fin 64) :
    val_main_v63 (F := Ideal) x0 x1 x2 x3 x4 x5 x6 x7 x8 x9 x10 x11 x12 x13 x14 x15 x16 x17 x18 (ix4 b h n e) = attn (layer scaleDiv (layerOf x1 x2 x3 x4 x5 x6) (slab x0 b)) (layer scaleDiv (layerOf x7 x8 x9 x10 x11 x12) (slab x0 b)) (layer scaleDiv (layerOf x13 x14 x15 x16 x17 x18) (slab x0 b)) n h e := by
  rw [val_main_v63_apply]
  unfold attn
  refine Finset.sum_congr rfl fun m _ => ?_
  have eL : lidx_main_v63 (ix4 b h n e) m = ix4 b h n m := funext fun a => by match a with | ⟨0, _⟩ => rfl | ⟨1, _⟩ => rfl | ⟨2, _⟩ => rfl | ⟨3, _⟩ => rfl
  have eR : ridx_main_v63 (ix4 b h n e) m = ix4 b h m e := funext fun a => by match a with | ⟨0, _⟩ => rfl | ⟨1, _⟩ => rfl | ⟨2, _⟩ => rfl | ⟨3, _⟩ => rfl
  have hs : val_main_v60 (F := Ideal) x0 x1 x2 x3 x4 x5 x6 x7 x8 x9 x10 x11 x12 (ix4 b h n m)
      = ∑ e' : Fin 64, (layer scaleDiv (layerOf x1 x2 x3 x4 x5 x6) (slab x0 b)) n (lane h e') * (layer scaleDiv (layerOf x7 x8 x9 x10 x11 x12) (slab x0 b)) m (lane h e') := by
    rw [val_main_v60_apply]
    refine Finset.sum_congr rfl fun e' _ => ?_
    have e1 : lidx_main_v60 (ix4 b h n m) e' = ix4 b h n e' := funext fun a => by match a with | ⟨0, _⟩ => rfl | ⟨1, _⟩ => rfl | ⟨2, _⟩ => rfl | ⟨3, _⟩ => rfl
    have e2 : ridx_main_v60 (ix4 b h n m) e' = ix4 b h m e' := funext fun a => by match a with | ⟨0, _⟩ => rfl | ⟨1, _⟩ => rfl | ⟨2, _⟩ => rfl | ⟨3, _⟩ => rfl
    rw [e1, e2, qh_entry x0 x1 x2 x3 x4 x5 x6 x7 x8 x9 x10 x11 x12 x13 x14 x15 x16 x17 x18 b h n e', kh_entry x0 x1 x2 x3 x4 x5 x6 x7 x8 x9 x10 x11 x12 x13 x14 x15 x16 x17 x18 b h m e']
  rw [eL, eR, val_main_v62_apply, hs, val_main_v61_apply, val_main_cst_2_apply, vh_entry x0 x1 x2 x3 x4 x5 x6 x7 x8 x9 x10 x11 x12 x13 x14 x15 x16 x17 x18 b h m e]
  rfl

/-- The heads side by side after the ReLU, at `(b, n, c)`: head `c / 64`, lane `c % 64`. -/
theorem attnOut_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (b : Fin 8) (n : Fin 1024) (c : Fin 512) :
    val_main_v66 (F := Ideal) x0 x1 x2 x3 x4 x5 x6 x7 x8 x9 x10 x11 x12 x13 x14 x15 x16 x17 x18 (ix3 b n c)
      = max (attn (layer scaleDiv (layerOf x1 x2 x3 x4 x5 x6) (slab x0 b)) (layer scaleDiv (layerOf x7 x8 x9 x10 x11 x12) (slab x0 b)) (layer scaleDiv (layerOf x13 x14 x15 x16 x17 x18) (slab x0 b)) n (headOf c) (laneOf c)) zero32 := by
  have ei : idx_main_v64 (idx_main_v65 (ix3 b n c)) = ix4 b (headOf c) n (laneOf c) := by
    have hb := b.isLt; have hn := n.isLt; have hc := c.isLt
    funext a
    apply Fin.ext
    match a with
    | ⟨0, _⟩ => show ((b.val * 1024 + n.val) * 512 + c.val) / 524288 = b.val; omega
    | ⟨1, _⟩ => show ((b.val * 1024 + n.val) * 512 + c.val) / 64 % 8 = c.val / 64; omega
    | ⟨2, _⟩ => show ((b.val * 1024 + n.val) * 512 + c.val) / 512 % 1024 = n.val; omega
    | ⟨3, _⟩ => show ((b.val * 1024 + n.val) * 512 + c.val) % 64 = c.val % 64; omega
  rw [val_main_v66_apply, val_main_v65_apply, val_main_v64_apply, ei, attn_entry x0 x1 x2 x3 x4 x5 x6 x7 x8 x9 x10 x11 x12 x13 x14 x15 x16 x17 x18 b (headOf c) n (laneOf c),
    val_main_call3_v0_apply, val_main_call3_cst_apply]
  rfl

/-- The result at `(b, n, d)`: the fourth layer of the heads' outputs. -/
theorem ref_entry (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) (x21 : (⟨S512, .f32⟩ : BufTy).Contents (Elt Ideal)) (x22 : (⟨S512, .f32⟩ : BufTy).Contents (Elt Ideal)) (x23 : (⟨S512, .f32⟩ : BufTy).Contents (Elt Ideal)) (x24 : (⟨S512, .f32⟩ : BufTy).Contents (Elt Ideal)) (b : Fin 8) (n : Fin 1024) (d : Fin 512) :
    val_main_v84 (F := Ideal) x0 x1 x2 x3 x4 x5 x6 x7 x8 x9 x10 x11 x12 x13 x14 x15 x16 x17 x18 x19 x20 x21 x22 x23 x24 (ix3 b n d) = block scaleDiv (layerOf x1 x2 x3 x4 x5 x6) (layerOf x7 x8 x9 x10 x11 x12) (layerOf x13 x14 x15 x16 x17 x18) (layerOf x19 x20 x21 x22 x23 x24) (slab x0 b) n d := by
  have eL : ∀ k, lidx_main_v67 (ix3 b n d) k = ix3 b n k := fun k => funext fun a => by match a with | ⟨0, _⟩ => rfl | ⟨1, _⟩ => rfl | ⟨2, _⟩ => rfl
  have eR : ∀ k, ridx_main_v67 (ix3 b n d) k = ix2 d k := fun k => funext fun a => by match a with | ⟨0, _⟩ => rfl | ⟨1, _⟩ => rfl
  have e1 : idx_main_v68 (idx_main_v69 (ix3 b n d)) = ix1 d := funext fun a => by match a with | ⟨0, _⟩ => rfl
  have e4 : idx_main_v71 (idx_main_v72 (ix3 b n d)) = ix1 d := funext fun a => by match a with | ⟨0, _⟩ => rfl
  have e11 : idx_main_v78 (idx_main_v79 (ix3 b n d)) = ix1 d := funext fun a => by match a with | ⟨0, _⟩ => rfl
  have e14 : idx_main_v81 (idx_main_v82 (ix3 b n d)) = ix1 d := funext fun a => by match a with | ⟨0, _⟩ => rfl
  rw [val_main_v84_apply, val_main_v83_apply, val_main_v80_apply, val_main_v73_apply, val_main_v70_apply, val_main_v67_apply,
    val_main_v69_apply, val_main_v68_apply, val_main_v72_apply, val_main_v71_apply, val_main_v79_apply, val_main_v78_apply,
    val_main_v77_apply, val_main_v76_apply, val_main_v75_apply, val_main_v74_apply, val_main_cst_3_apply, val_main_v82_apply,
    val_main_v81_apply, val_main_call4_v0_apply, val_main_call4_cst_apply, e1, e4, e11, e14]
  simp only [eL, eR, attnOut_entry x0 x1 x2 x3 x4 x5 x6 x7 x8 x9 x10 x11 x12 x13 x14 x15 x16 x17 x18 b n]
  rfl

/-- The reference's result array is the specification's, with the scale as a quotient. -/
theorem ref_result (x0 : (⟨S8x1024x512, .f32⟩ : BufTy).Contents (Elt Ideal)) (x1 : (⟨S512x512, .f32⟩ : BufTy).Contents (Elt Ideal)) (x2 : (⟨S512, .f32⟩ : BufTy).Contents (Elt Ideal)) (x3 : (⟨S512, .f32⟩ : BufTy).Contents (Elt Ideal)) (x4 : (⟨S512, .f32⟩ : BufTy).Contents (Elt Ideal)) (x5 : (⟨S512, .f32⟩ : BufTy).Contents (Elt Ideal)) (x6 : (⟨S512, .f32⟩ : BufTy).Contents (Elt Ideal)) (x7 : (⟨S512x512, .f32⟩ : BufTy).Contents (Elt Ideal)) (x8 : (⟨S512, .f32⟩ : BufTy).Contents (Elt Ideal)) (x9 : (⟨S512, .f32⟩ : BufTy).Contents (Elt Ideal)) (x10 : (⟨S512, .f32⟩ : BufTy).Contents (Elt Ideal)) (x11 : (⟨S512, .f32⟩ : BufTy).Contents (Elt Ideal)) (x12 : (⟨S512, .f32⟩ : BufTy).Contents (Elt Ideal)) (x13 : (⟨S512x512, .f32⟩ : BufTy).Contents (Elt Ideal)) (x14 : (⟨S512, .f32⟩ : BufTy).Contents (Elt Ideal)) (x15 : (⟨S512, .f32⟩ : BufTy).Contents (Elt Ideal)) (x16 : (⟨S512, .f32⟩ : BufTy).Contents (Elt Ideal)) (x17 : (⟨S512, .f32⟩ : BufTy).Contents (Elt Ideal)) (x18 : (⟨S512, .f32⟩ : BufTy).Contents (Elt Ideal)) (x19 : (⟨S512x512, .f32⟩ : BufTy).Contents (Elt Ideal)) (x20 : (⟨S512, .f32⟩ : BufTy).Contents (Elt Ideal)) (x21 : (⟨S512, .f32⟩ : BufTy).Contents (Elt Ideal)) (x22 : (⟨S512, .f32⟩ : BufTy).Contents (Elt Ideal)) (x23 : (⟨S512, .f32⟩ : BufTy).Contents (Elt Ideal)) (x24 : (⟨S512, .f32⟩ : BufTy).Contents (Elt Ideal)) :
    val_main_v84 (F := Ideal) x0 x1 x2 x3 x4 x5 x6 x7 x8 x9 x10 x11 x12 x13 x14 x15 x16 x17 x18 x19 x20 x21 x22 x23 x24 = result scaleDiv x0 (layerOf x1 x2 x3 x4 x5 x6) (layerOf x7 x8 x9 x10 x11 x12) (layerOf x13 x14 x15 x16 x17 x18) (layerOf x19 x20 x21 x22 x23 x24) := by
  funext i
  obtain ⟨b, n, d, rfl⟩ : ∃ (b : Fin 8) (n : Fin 1024) (d : Fin 512), i = ix3 b n d := ⟨i 0, i 1, i 2, eq_ix3 i⟩
  exact ref_entry x0 x1 x2 x3 x4 x5 x6 x7 x8 x9 x10 x11 x12 x13 x14 x15 x16 x17 x18 x19 x20 x21 x22 x23 x24 b n d

end Cert.ReferenceIdeal.AtIndex

end
-- ==== Proof.lean ====
/-
  The certificate of a transformer block without softmax: four layers "linear map, batch norm with stored statistics,
  ReLU" around an eight-head attention whose scores are used as they are.

  The kernel computes one batch element per grid point; the reference computes the whole `[8, 1024, 512]` array with
  batched contractions. On the extended reals every change of float format is the identity and every contraction is
  the plain sum of products, so entry by entry both are the specification's block (Proof/Spec.lean) — the kernel with
  the batch norm's scale as `g · rsqrt(var + ε)` (Proof/KernelRead.lean, Proof/KernelValue.lean), the reference with
  `g / sqrt(var + ε)` (Proof/RefRead.lean). The two scales agree where the stored variance is a non-negative real
  (Proof/BnScale.lean), which is what the precondition says of the four variance arrays (Proof/PreFacts.lean); no
  other input's finiteness is used.
-/
import proofs.«177937_j85633057947962_1_alg».proof.Defs
import proofs.«177937_j85633057947962_1_alg».proof.Proof.Gen.Kernel
import proofs.«177937_j85633057947962_1_alg».proof.Proof.Gen.Kernel.Skeleton
import proofs.«177937_j85633057947962_1_alg».proof.Proof.Gen.Kernel.Launch
import proofs.«177937_j85633057947962_1_alg».proof.Proof.Gen.Kernel.Points
import proofs.«177937_j85633057947962_1_alg».proof.Proof.Gen.Kernel.Frame
import proofs.«177937_j85633057947962_1_alg».proof.Proof.Gen.KernelIdeal
import proofs.«177937_j85633057947962_1_alg».proof.Proof.Gen.KernelIdeal.Skeleton
import proofs.«177937_j85633057947962_1_alg».proof.Proof.Gen.KernelIdeal.Launch
import proofs.«177937_j85633057947962_1_alg».proof.Proof.Gen.KernelIdeal.Points
import proofs.«177937_j85633057947962_1_alg».proof.Proof.Gen.KernelIdeal.Frame
import proofs.«177937_j85633057947962_1_alg».proof.Proof.Gen.ReferenceIdeal
import proofs.«177937_j85633057947962_1_alg».proof.Proof.Gen.Pre_finite_inputs
import proofs.«177937_j85633057947962_1_alg».proof.Proof.Gen.KernelIdeal.Value
import proofs.«177937_j85633057947962_1_alg».proof.Proof.Gen.ReferenceIdeal.Run
import proofs.«177937_j85633057947962_1_alg».proof.Proof.Gen.ReferenceIdeal.Read
import proofs.«177937_j85633057947962_1_alg».proof.Proof.BnScale
import proofs.«177937_j85633057947962_1_alg».proof.Proof.PreFacts
import proofs.«177937_j85633057947962_1_alg».proof.Proof.KernelValue
import proofs.«177937_j85633057947962_1_alg».proof.Proof.RefRead
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx Cert.Spec

/-- Where every stored-variance entry of a layer is a non-negative real, its two forms of the scale agree. -/
theorem scale_eq (L : Layer) (h : ∀ d : Fin 512, 0 ≤ L.var d ∧ L.var d ≠ ⊤) : scaleDiv L = scaleMul L :=
  funext fun d => Cert.BnScale.div_sqrt_eq_mul_rsqrt (L.g d) (L.var d) (h d).1 (h d).2

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- If the two forms of the scale agree on every layer, the result array is the same under either. -/
theorem result_congr (X : (⟨3, ![8, 1024, 512]⟩ : Shape).Idx → EReal) (Lq Lk Lv Lp : Layer) (hq : scaleDiv Lq = scaleMul Lq)
    (hk : scaleDiv Lk = scaleMul Lk) (hv : scaleDiv Lv = scaleMul Lv) (hp : scaleDiv Lp = scaleMul Lp) :
    result scaleDiv X Lq Lk Lv Lp = result scaleMul X Lq Lk Lv Lp := by
  funext i
  unfold result
  rw [block_congr Lq Lk Lv Lp hq hk hv hp]

/-- The result array of equal argument arrays. -/
theorem result_args_congr (sc : Layer → Fin 512 → EReal) {A0 B0 : (⟨3, ![8, 1024, 512]⟩ : Shape).Idx → EReal} {A1 B1 : (⟨2, ![512, 512]⟩ : Shape).Idx → EReal} {A2 B2 : (⟨1, ![512]⟩ : Shape).Idx → EReal} {A3 B3 : (⟨1, ![512]⟩ : Shape).Idx → EReal} {A4 B4 : (⟨1, ![512]⟩ : Shape).Idx → EReal} {A5 B5 : (⟨1, ![512]⟩ : Shape).Idx → EReal} {A6 B6 : (⟨1, ![512]⟩ : Shape).Idx → EReal} {A7 B7 : (⟨2, ![512, 512]⟩ : Shape).Idx → EReal} {A8 B8 : (⟨1, ![512]⟩ : Shape).Idx → EReal} {A9 B9 : (⟨1, ![512]⟩ : Shape).Idx → EReal} {A10 B10 : (⟨1, ![512]⟩ : Shape).Idx → EReal} {A11 B11 : (⟨1, ![512]⟩ : Shape).Idx → EReal} {A12 B12 : (⟨1, ![512]⟩ : Shape).Idx → EReal} {A13 B13 : (⟨2, ![512, 512]⟩ : Shape).Idx → EReal} {A14 B14 : (⟨1, ![512]⟩ : Shape).Idx → EReal} {A15 B15 : (⟨1, ![512]⟩ : Shape).Idx → EReal} {A16 B16 : (⟨1, ![512]⟩ : Shape).Idx → EReal} {A17 B17 : (⟨1, ![512]⟩ : Shape).Idx → EReal} {A18 B18 : (⟨1, ![512]⟩ : Shape).Idx → EReal} {A19 B19 : (⟨2, ![512, 512]⟩ : Shape).Idx → EReal} {A20 B20 : (⟨1, ![512]⟩ : Shape).Idx → EReal} {A21 B21 : (⟨1, ![512]⟩ : Shape).Idx → EReal} {A22 B22 : (⟨1, ![512]⟩ : Shape).Idx → EReal} {A23 B23 : (⟨1, ![512]⟩ : Shape).Idx → EReal} {A24 B24 : (⟨1, ![512]⟩ : Shape).Idx → EReal}
    (h0 : A0 = B0) (h1 : A1 = B1) (h2 : A2 = B2) (h3 : A3 = B3) (h4 : A4 = B4) (h5 : A5 = B5) (h6 : A6 = B6) (h7 : A7 = B7) (h8 : A8 = B8) (h9 : A9 = B9) (h10 : A10 = B10) (h11 : A11 = B11) (h12 : A12 = B12) (h13 : A13 = B13) (h14 : A14 = B14) (h15 : A15 = B15) (h16 : A16 = B16) (h17 : A17 = B17) (h18 : A18 = B18) (h19 : A19 = B19) (h20 : A20 = B20) (h21 : A21 = B21) (h22 : A22 = B22) (h23 : A23 = B23) (h24 : A24 = B24) :
    result sc A0 (layerOf A1 A2 A3 A4 A5 A6) (layerOf A7 A8 A9 A10 A11 A12) (layerOf A13 A14 A15 A16 A17 A18) (layerOf A19 A20 A21 A22 A23 A24)
      = result sc B0 (layerOf B1 B2 B3 B4 B5 B6) (layerOf B7 B8 B9 B10 B11 B12) (layerOf B13 B14 B15 B16 B17 B18) (layerOf B19 B20 B21 B22 B23 B24) := by
  subst_vars
  rfl

/-- Both runs end with the result array of the specification: the kernel's with the scale as a product, the
    reference's with the scale as a quotient, of arguments that agree; under the precondition the two are one array. -/
theorem algebraic : Cert.algebraic_KernelIdeal_ReferenceIdeal := by
  intro m ρ m' ρ' hpre hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21, a22, a23, a24⟩ := hagree c
  obtain ⟨hq, hk, hv, hp⟩ := Cert.PreFacts.var_facts _ _ _ _ _ _ _ _ _ _ _ _ _ _ _ _ _ _ _ _ _ _ _ _ _ (hpre c)
  refine ((Cert.ReferenceIdeal.Read.val_main_v84_eq m' c).trans (Cert.ReferenceIdeal.AtIndex.ref_result _ _ _ _ _ _ _ _ _ _ _ _ _ _ _ _ _ _ _ _ _ _ _ _ _)).trans ?_
  refine (result_args_congr scaleDiv a0 a1 a2 a3 a4 a5 a6 a7 a8 a9 a10 a11 a12 a13 a14 a15 a16 a17 a18 a19 a20 a21 a22 a23 a24).trans ?_
  exact result_congr _ _ _ _ _ (scale_eq _ fun d => hq (ix1 d)) (scale_eq _ fun d => hk (ix1 d))
    (scale_eq _ fun d => hv (ix1 d)) (scale_eq _ fun d => hp (ix1 d))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
